-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_v33 : IVec S_ 1) : IVec S_ 1 :=
  let main_v34 : IVec S1x600000 32 := (extractStridedSlice S1x600000 ![0, 0] · slices_S2x600000_S1x600000_0_0) main_arg1
  let main_v35 : IVec S600000 32 := shapeCast S600000 main_v34 shapeCasts_S1x600000_S600000
  let main_c_12 : IVec S_ 32 := constantI S_ 32 0#32
  let main_v36 : IVec S600000 32 := broadcastInDim S600000 ![] bcast_S_S600000 main_c_12
  let main_v37 : IVec S600000 1 := cmpi .sge main_v35 main_v36
  let main_v38 : IVec S1x600000 32 := (extractStridedSlice S1x600000 ![0, 0] · slices_S2x600000_S1x600000_0_0) main_arg1
  let main_v39 : IVec S600000 32 := shapeCast S600000 main_v38 shapeCasts_S1x600000_S600000
  let main_c_13 : IVec S_ 32 := constantI S_ 32 50000#32
  let main_v40 : IVec S600000 32 := broadcastInDim S600000 ![] bcast_S_S600000 main_c_13
  let main_v41 : IVec S600000 1 := cmpi .slt main_v39 main_v40
  let main_v42 : IVec S600000 1 := andi main_v37 main_v41
  let main_c_14 : IVec S_ 1 := constantI S_ 1 1#1
  let main_v43 : IVec S_ 1 := (fun x v => Host.reduce IntOp.andi x v reducesTo_S600000_S_d0 h_S_) main_v42 main_c_14
  let main_v44 : IVec S_ 1 := andi main_v33 main_v43
  main_v44

def fn_part1 {F : FTy → Type} [FloatOps F] (main_arg1 : IVec S2x600000 32) (main_arg5 : FVec F S256 .f32) (main_arg6 : FVec F S128x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x600000 32) (main_arg2 : FVec F S128x256 .f32) (main_arg3 : FVec F S256 .f32) (main_arg4 : FVec F S256 .f32) (main_arg5 : FVec F S256 .f32) (main_arg6 : FVec F S128x256 .f32) (main_arg7 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x256 : Shape := ⟨2, ![1, 256]⟩
abbrev S25x1x256 : Shape := ⟨3, ![25, 1, 256]⟩
abbrev S2000x128 : Shape := ⟨2, ![2000, 128]⟩
abbrev S1x1x256 : Shape := ⟨3, ![1, 1, 256]⟩
abbrev S2000x256 : Shape := ⟨2, ![2000, 256]⟩
abbrev S50000x256 : Shape := ⟨2, ![50000, 256]⟩

abbrev nBuf : Space → Nat
  | .hbm => 67
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S128x256, .f32⟩
  | .hbm, ⟨7, _⟩ => ⟨S256, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S1, .i32⟩
  | .hbm, ⟨21, _⟩ => ⟨S_, .i32⟩
  | .hbm, ⟨22, _⟩ => ⟨S600000x1, .i32⟩
  | .hbm, ⟨23, _⟩ => ⟨S600000x1, .i1⟩
  | .hbm, ⟨24, _⟩ => ⟨S1x1, .i32⟩
  | .hbm, ⟨25, _⟩ => ⟨S600000x1, .i32⟩
  | .hbm, ⟨26, _⟩ => ⟨S600000x1, .i1⟩
  | .hbm, ⟨27, _⟩ => ⟨S600000x1, .i1⟩
  | .hbm, ⟨28, _⟩ => ⟨S_, .i1⟩
  | .hbm, ⟨29, _⟩ => ⟨S600000, .i1⟩
  | .hbm, ⟨30, _⟩ => ⟨S600000x128, .f32⟩
  | .hbm, ⟨31, _⟩ => ⟨S600000x128, .i1⟩
  | .hbm, ⟨32, _⟩ => ⟨S_, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S50000x128, .bf16⟩
  | .hbm, ⟨40, _⟩ => ⟨S50000x128, .bf16⟩
  | .hbm, ⟨41, _⟩ => ⟨S128x256, .bf16⟩
  | .hbm, ⟨42, _⟩ => ⟨S128x256, .bf16⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S25x1x256, .f32⟩
  | .hbm, ⟨48, _⟩ => ⟨S25x1x256, .f32⟩
  | .hbm, ⟨49, _⟩ => ⟨S_, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S1x256, .f32⟩
  | .hbm, ⟨66, _⟩ => ⟨S50000x256, .f32⟩
  | .local _ .vmem, ⟨0, _⟩ => ⟨S2000x128, .bf16⟩
  | .local _ .vmem, ⟨1, _⟩ => ⟨S2000x128, .bf16⟩
  | .local _ .vmem, ⟨2, _⟩ => ⟨S128x256, .bf16⟩
  | .local _ .vmem, ⟨3, _⟩ => ⟨S1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S128x256, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S128x256, .bf16⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16_0 : Ref sig .tc := ⟨.hbm, 47, rfl⟩
abbrev main_v16_1 : Ref sig .tc := ⟨.hbm, 48, rfl⟩
abbrev main_cst_0 : Ref sig .tc := ⟨.hbm, 49, rfl⟩
abbrev main_v17 : Ref sig .tc := ⟨.hbm, 50, rfl⟩
abbrev main_cst_1 : Ref sig .tc := ⟨.hbm, 51, rfl⟩
abbrev main_v18 : Ref sig .tc := ⟨.hbm, 52, rfl⟩
abbrev main_cst_2 : Ref sig .tc := ⟨.hbm, 53, rfl⟩
abbrev main_v19 : Ref sig .tc := ⟨.hbm, 54, rfl⟩
abbrev main_v20 : Ref sig .tc := ⟨.hbm, 55, rfl⟩
abbrev main_cst_3 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_4 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S256 : S2000x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reducesTo_S25x1x256_S256_d0_1 : S25x1x256.ReducesTo [0, 1] S256
  bcast_S_S256 : S_.BroadcastsInDim S256 (![] : Fin 0 → Fin S256.rank)
  inb_S2000x256_S2000x256_0_0 : ∀ a, (![0, 0] : Fin 2 → Nat) a + S2000x256.size a ≤ S2000x256.size a
  h_S2000x256 : 0 < S2000x256.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S25x1x256.size a
  hwx0_3 : ∀ i : grid0.Coords, EltTy.bits .f32 = 32 ∨ (Rect.block (s := S25x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S25x1x256.size a
  hwx0_4 : ∀ i : grid0.Coords, EltTy.bits .f32 = 32 ∨ (Rect.block (s := S25x1x256) S1x1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x256.size a ≤ S128x256.size a
  hwx1_8 : ∀ i : grid1.Coords, EltTy.bits .bf16 = 32 ∨ (Rect.block (s := S128x256) S128x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x256.size a ≤ S50000x256.size a
  hwx1_10 : ∀ i : grid1.Coords, EltTy.bits .f32 = 32 ∨ (Rect.block (s := S50000x256) S2000x256.size (cc1_transform_10 i) (hinb1_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v8) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S128x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v29) S2000x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x256 : Shape := ⟨2, ![50000, 256]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S128x256, .f32⟩
  | .hbm, ⟨7, _⟩ => ⟨S256, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S50000x256, .f32⟩
  | .hbm, ⟨26, _⟩ => ⟨S1x256, .f32⟩
  | .hbm, ⟨27, _⟩ => ⟨S50000x256, .f32⟩
  | .hbm, ⟨28, _⟩ => ⟨S50000x256, .f32⟩
  | .hbm, ⟨29, _⟩ => ⟨S_, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S_, .i32⟩
  | .hbm, ⟨35, _⟩ => ⟨S_, .f32⟩
  | .hbm, ⟨36, _⟩ => ⟨S256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .i1⟩
  | .hbm, ⟨76, _⟩ => ⟨S_, .f32⟩
  | .hbm, ⟨77, _⟩ => ⟨S50000x256, .f32⟩
  | .hbm, ⟨78, _⟩ => ⟨S50000x256, .i1⟩
  | .hbm, ⟨79, _⟩ => ⟨S_, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S_, .f32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_cst_1 : Ref sig .tc := ⟨.hbm, 79, rfl⟩
abbrev main_call1_call0_v0 : Ref sig .tc := ⟨.hbm, 80, rfl⟩
abbrev main_call1_call0_v1 : Ref sig .tc := ⟨.hbm, 81, rfl⟩
abbrev main_call1_v4 : Ref sig .tc := ⟨.hbm, 82, rfl⟩
abbrev main_call1_v5 : Ref sig .tc := ⟨.hbm, 83, rfl⟩
abbrev main_call1_cst_2 : Ref sig .tc := ⟨.hbm, 84, rfl⟩
abbrev main_call1_v6 : Ref sig .tc := ⟨.hbm, 85, rfl⟩
abbrev main_call1_v7 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.KArr.lean ====
/-
  Names for the arrays the idealized kernel program's two regions read and write, as plain index functions into the
  extended reals, read off a valuation V of the TensorCore's buffers: the aggregated features (agg), the node features
  (xb), the two weight matrices (wg, wsc), the row vectors bias / scale / shift / shortcut bias (bg, gam, bet, bsc), the
  column statistics (mean, var), the 25 per-block column sums of out_lin and of its square (sum3, sumsq3), and the result.
-/
import proofs.«418842_j13795434955523_2_alg».proof.Proof.Gen.KernelIdeal.Frame
import Idealize.ShloMosaic.Lib.ValueIdx

noncomputable section

namespace Cert.KernelIdeal.Arr

open Idealize.ShloMosaic Idealize.ShloMosaic.TcCoe Idealize.SL.Sem Cert.KernelIdeal Idealize.ShloMosaic.ValueIdx

/-- A valuation of the TensorCore's buffers at the exact instance. -/
abbrev Val := (c : Dev nD) → (b : Ref sig .tc) → Buf (Elt Ideal) ((c : Thread nD τ).loc b)

variable (V : Val) (c : Dev nD)

def agg : Fin 50000 → Fin 128 → EReal := fun i k => (V c main_v8 : S50000x128.Idx → EReal) (ix2 i k)
def xb : Fin 50000 → Fin 128 → EReal := fun i k => (V c main_v9 : S50000x128.Idx → EReal) (ix2 i k)
def wg : Fin 128 → Fin 256 → EReal := fun k j => (V c main_v10 : S128x256.Idx → EReal) (ix2 k j)
def wsc : Fin 128 → Fin 256 → EReal := fun k j => (V c main_v11 : S128x256.Idx → EReal) (ix2 k j)
def bg : Fin 256 → EReal := fun j => (V c main_v12 : S1x256.Idx → EReal) (ix2 (0 : Fin 1) j)
def gam : Fin 256 → EReal := fun j => (V c main_v13 : S1x256.Idx → EReal) (ix2 (0 : Fin 1) j)
def bet : Fin 256 → EReal := fun j => (V c main_v14 : S1x256.Idx → EReal) (ix2 (0 : Fin 1) j)
def bsc : Fin 256 → EReal := fun j => (V c main_v15 : S1x256.Idx → EReal) (ix2 (0 : Fin 1) j)
def mean : Fin 256 → EReal := fun j => (V c main_v27 : S1x256.Idx → EReal) (ix2 (0 : Fin 1) j)
def var : Fin 256 → EReal := fun j => (V c main_v28 : S1x256.Idx → EReal) (ix2 (0 : Fin 1) j)
def sum3 : Fin 25 → Fin 256 → EReal := fun t j => (V c main_v16_0 : S25x1x256.Idx → EReal) (ix3 t (0 : Fin 1) j)
def sumsq3 : Fin 25 → Fin 256 → EReal := fun t j => (V c main_v16_1 : S25x1x256.Idx → EReal) (ix3 t (0 : Fin 1) j)
def out : Fin 50000 → Fin 256 → EReal := fun i j => (V c main_v29 : S50000x256.Idx → EReal) (ix2 i j)

end Cert.KernelIdeal.Arr

end
-- ==== Proof.Spec.lean ====
/-
  The mathematics of the certificate, stated over plain index functions into the extended reals (no program is
  imported here). A graph layer: A is the aggregated node features (N = 50000 nodes, 128 input features), X the node
  features themselves, out_lin = A·Wg + bg (256 output features). Batch normalisation takes, per output feature j,
  the mean and the variance of out_lin's column j over all N nodes; then an affine map, ELU, and a shortcut X·Wsc + bsc.

  One side takes the column statistics in 25 blocks of 2000 rows — block sums of out_lin and of its square, then
  mean = (Σ blocks)/N and var = max(E[o²] − mean², 0) —, the other as mean = (Σ rows)/N and var = Σ (o − mean)²/N.
  Over the reals these agree (König–Huygens: Σ (o − μ)² = Σ o² − N μ² when μ = Σ o / N, and the right side is ≥ 0);
  on the extended reals the identity needs every out_lin entry finite, which holds when A, Wg and bg are finite.
  The two ELU spellings, select(b > 0, b, eᵇ − 1) and select(b > 0, b, 1·expm1(select(b > 0, 0, b))), agree at
  every extended real, since expm1 y = eʸ − 1 there.
-/
import Idealize.ShloMosaic.PureOps.Ideal
import Idealize.ShloMosaic.PureOps.Ideal.Laws
import Idealize.ShloMosaic.Lib.ValueIdx

noncomputable section

namespace Cert.Spec

open Idealize.ShloMosaic

/-- The float words both programs carry, read at the exact instance. -/
abbrev zeroF : EReal := Ideal.ofBits .f32 0x00000000#32
abbrev oneF : EReal := Ideal.ofBits .f32 0x3F800000#32
/-- 50000.0, the number of rows. -/
abbrev nF : EReal := Ideal.ofBits .f32 0x47435000#32
/-- The batch-norm epsilon: the same word on both sides, never evaluated. -/
abbrev epsF : EReal := Ideal.ofBits .f32 0x3727C5AC#32
abbrev nanF : EReal := Ideal.ofBits .f32 0x7FC00000#32

/-- Row r of block t: 2000·t + r. -/
def rowOf (t : Fin 25) (r : Fin 2000) : Fin 50000 := ⟨2000 * t.val + r.val, by omega⟩

section
variable (A X : Fin 50000 → Fin 128 → EReal) (Wg Wsc : Fin 128 → Fin 256 → EReal) (bg gam bet bsc : Fin 256 → EReal)

/-- out_lin = A·Wg + bg at (i, j). -/
def outLin (i : Fin 50000) (j : Fin 256) : EReal := (∑ k : Fin 128, A i k * Wg k j) + bg j

/-- The shortcut X·Wsc + bsc at (i, j). -/
def shortcut (i : Fin 50000) (j : Fin 256) : EReal := (∑ k : Fin 128, X i k * Wsc k j) + bsc j

/-- Block t's column sum of out_lin, and of its square. -/
def blkSum (t : Fin 25) (j : Fin 256) : EReal := ∑ r : Fin 2000, outLin A Wg bg (rowOf t r) j
def blkSumSq (t : Fin 25) (j : Fin 256) : EReal :=
  ∑ r : Fin 2000, outLin A Wg bg (rowOf t r) j * outLin A Wg bg (rowOf t r) j

/-- The blockwise statistics: mean = (0 + Σ_t blkSum t)/N, var = max((0 + Σ_t blkSumSq t)/N − mean·mean, 0). -/
def kMean (j : Fin 256) : EReal := Ideal.div (zeroF + ∑ t : Fin 25, blkSum A Wg bg t j) nF
def kVar (j : Fin 256) : EReal :=
  max (Ideal.div (zeroF + ∑ t : Fin 25, blkSumSq A Wg bg t j) nF - kMean A Wg bg j * kMean A Wg bg j) zeroF

/-- The whole-column statistics: mean = (0 + Σ_i o_i)/N; var = Σ_i (o_i − mean)² / (N − 0), taken when N − 0 > 0. -/
def rMean (j : Fin 256) : EReal := Ideal.div (zeroF + ∑ i : Fin 50000, outLin A Wg bg i j) nF
def rDen : EReal := nF - (((0#32 : BitVec 32).toInt : ℝ) : EReal)
def rVar (j : Fin 256) : EReal :=
  Scalar.select (Ideal.cmp .ogt rDen zeroF)
    (Ideal.div (zeroF + ∑ i : Fin 50000,
      (outLin A Wg bg i j - rMean A Wg bg j) * (outLin A Wg bg i j - rMean A Wg bg j)) rDen)
    nanF

/-- The normalised, scaled and shifted value from given column statistics. -/
def bnOf (mean var : Fin 256 → EReal) (i : Fin 50000) (j : Fin 256) : EReal :=
  ((outLin A Wg bg i j - mean j) * Ideal.rsqrt (var j + epsF)) * gam j + bet j

/-- ELU as the first program spells it, and as the second does. -/
def eluK (b : EReal) : EReal := Scalar.select (Ideal.cmp .ogt b zeroF) b (Ideal.exp b - oneF)
def eluR (b : EReal) : EReal :=
  Scalar.select (Ideal.cmp .ogt b zeroF) b
    (oneF * (Ideal.exp (Scalar.select (Ideal.cmp .ogt b zeroF) zeroF b) - 1))

/-- The final value from given column statistics, first spelling: shortcut + ELU(bn). -/
def finalOf (mean var : Fin 256 → EReal) (i : Fin 50000) (j : Fin 256) : EReal :=
  shortcut X Wsc bsc i j + eluK (bnOf A Wg bg gam bet mean var i j)

/-- What the first program computes, and what the second does. -/
def Kout (i : Fin 50000) (j : Fin 256) : EReal :=
  finalOf A X Wg Wsc bg gam bet bsc (kMean A Wg bg) (kVar A Wg bg) i j
def Rout (i : Fin 50000) (j : Fin 256) : EReal :=
  shortcut X Wsc bsc i j + eluR (bnOf A Wg bg gam bet (rMean A Wg bg) (rVar A Wg bg) i j)

end

end Cert.Spec

end
-- ==== Proof.AggDefs.lean ====
/-
  The edge aggregation both programs open with, as ONE pure function of the node features x : [50000, 128] and the edge
  list e : [2, 600000] (row 0 the source node of each edge, row 1 its destination): gather row src(k) of x for every edge k,
  then add it into row dst(k) of a zero array (an update whose destination is out of range is dropped). The first program
  gathers with "fill": negative sources wrap by +50000, and a row whose wrapped source is outside [0, 49999] is replaced by
  the NaN word; the second gathers the wrapped source clamped, with no mask. Each definition transcribes its program's
  operations in order, so that the program's run yields it by unfolding.
-/
import proofs.«418842_j13795434955523_2_alg».proof.KernelIdeal
import proofs.«418842_j13795434955523_2_alg».proof.ReferenceIdeal

noncomputable section

namespace Cert.KernelIdeal.Agg

open Idealize.ShloMosaic Cert.KernelIdeal
variable {F : FTy → Type} [FloatOps F]
variable [Cert.KernelIdeal.Facts]
open Cert.KernelIdeal.Facts₀ Cert.KernelIdeal.Facts

/-- The source row of every edge, and the destination row. -/
def src (a1 : IVec S2x600000 32) : IVec S600000 32 :=
  shapeCast S600000 ((extractStridedSlice S1x600000 ![0, 0] · slices_S2x600000_S1x600000_0_0) a1) shapeCasts_S1x600000_S600000
def dst (a1 : IVec S2x600000 32) : IVec S600000 32 :=
  shapeCast S600000 ((extractStridedSlice S1x600000 ![1, 0] · slices_S2x600000_S1x600000_1_0) a1) shapeCasts_S1x600000_S600000

/-- The wrapped source as a column of start indices: s + 50000 where s < 0, else s. -/
def wrapped (s : IVec S600000 32) : IVec S600000x1 32 :=
  let c : IVec S_ 32 := constantI S_ 32 0#32
  let v0 : IVec S600000 32 := broadcastInDim S600000 ![] bcast_S_S600000 c
  let v1 : IVec S600000 1 := cmpi .slt s v0
  let c_0 : IVec S_ 32 := constantI S_ 32 50000#32
  let v2 : IVec S600000 32 := broadcastInDim S600000 ![] bcast_S_S600000 c_0
  let v3 : IVec S600000 32 := addi s v2
  let v4 : IVec S600000 32 := select v1 v3 s
  broadcastInDim S600000x1 ![0] bcast_S600000_S600000x1_0 v4

/-- Per edge: is the wrapped source inside [0, 49999]? -/
def inRange (v5 : IVec S600000x1 32) : IVec S600000 1 :=
  let c_1 : IVec S1 32 := constantI S1 32 49999#32
  let c_2 : IVec S_ 32 := constantI S_ 32 0#32
  let v6 : IVec S600000x1 32 := broadcastInDim S600000x1 ![] bcast_S_S600000x1 c_2
  let v7 : IVec S600000x1 1 := cmpi .sge v5 v6
  let v8 : IVec S1x1 32 := broadcastInDim S1x1 ![1] bcast_S1_S1x1_1 c_1
  let v9 : IVec S600000x1 32 := broadcastInDim S600000x1 ![0, 1] bcast_S1x1_S600000x1_0_1 v8
  let v10 : IVec S600000x1 1 := cmpi .sle v5 v9
  let v11 : IVec S600000x1 1 := andi v7 v10
  let c_3 : IVec S_ 1 := constantI S_ 1 1#1
  (fun x v => Host.reduce IntOp.andi x v reducesTo_S600000x1_S600000_d1 h_S_) v11 c_3

/-- The gathered rows, a row out of range replaced by the NaN word. -/
def take (a0 : FVec F S50000x128 .f32) (s : IVec S600000 32) : FVec F S600000x128 .f32 :=
  let v5 : IVec S600000x1 32 := wrapped s
  let v12 : IVec S600000 1 := inRange v5
  let v13 : FVec F S600000x128 .f32 := (fun x i => Host.gather gather_S50000x128_S600000x1_S600000x128_1_0_n_n_0_1_1128 x i) a0 v5
  let v14 : IVec S600000x128 1 := broadcastInDim S600000x128 ![0] bcast_S600000_S600000x128_0 v12
  let cst : FVec F S_ .f32 := constant S_ .f32 0x7FC00000#32
  let v15 : FVec F S600000x128 .f32 := broadcastInDim S600000x128 ![] bcast_S_S600000x128 cst
  select v14 v13 v15

/-- The aggregated features: every edge's gathered row added into its destination row of a zero array. -/
def agg (a0 : FVec F S50000x128 .f32) (a1 : IVec S2x600000 32) : FVec F S50000x128 .f32 :=
  let main_v4 : FVec F S600000x128 .f32 := take a0 (src a1)
  let main_cst : FVec F S_ .f32 := constant S_ .f32 0x00000000#32
  let main_v5 : FVec F S50000x128 .f32 := broadcastInDim S50000x128 ![] bcast_S_S50000x128 main_cst
  let main_v6 : IVec S600000x1 32 := broadcastInDim S600000x1 ![0] bcast_S600000_S600000x1_0 (dst a1)
  (fun x i u => Host.scatterAdd scatter_S50000x128_S600000x1_S600000x128_1_0_0_1 x i u) main_v5 main_v6 main_v4

end Cert.KernelIdeal.Agg

namespace Cert.ReferenceIdeal.Agg

open Idealize.ShloMosaic Cert.ReferenceIdeal
variable {F : FTy → Type} [FloatOps F]
variable [Cert.ReferenceIdeal.Facts]
open Cert.ReferenceIdeal.Facts₀ Cert.ReferenceIdeal.Facts

def src (a1 : IVec S2x600000 32) : IVec S600000 32 :=
  shapeCast S600000 ((extractStridedSlice S1x600000 ![0, 0] · slices_S2x600000_S1x600000_0_0) a1) shapeCasts_S1x600000_S600000
def dst (a1 : IVec S2x600000 32) : IVec S600000 32 :=
  shapeCast S600000 ((extractStridedSlice S1x600000 ![1, 0] · slices_S2x600000_S1x600000_1_0) a1) shapeCasts_S1x600000_S600000

/-- The wrapped source as a column of start indices. -/
def wrapped (s : IVec S600000 32) : IVec S600000x1 32 :=
  let main_c : IVec S_ 32 := constantI S_ 32 0#32
  let main_v4 : IVec S600000 32 := broadcastInDim S600000 ![] bcast_S_S600000 main_c
  let main_v5 : IVec S600000 1 := cmpi .slt s main_v4
  let main_c_0 : IVec S_ 32 := constantI S_ 32 50000#32
  let main_v6 : IVec S600000 32 := broadcastInDim S600000 ![] bcast_S_S600000 main_c_0
  let main_v7 : IVec S600000 32 := addi s main_v6
  let main_v8 : IVec S600000 32 := select main_v5 main_v7 s
  broadcastInDim S600000x1 ![0] bcast_S600000_S600000x1_0 main_v8

/-- The aggregated features, gathered with the wrapped source clamped and no mask. -/
def agg (a0 : FVec F S50000x128 .f32) (a1 : IVec S2x600000 32) : FVec F S50000x128 .f32 :=
  let main_v10 : FVec F S600000x128 .f32 := (fun x i => Host.gather gather_S50000x128_S600000x1_S600000x128_1_0_n_n_0_1_1128 x i) a0 (wrapped (src a1))
  let main_cst : FVec F S_ .f32 := constant S_ .f32 0x00000000#32
  let main_v11 : FVec F S50000x128 .f32 := broadcastInDim S50000x128 ![] bcast_S_S50000x128 main_cst
  let main_v12 : IVec S600000x1 32 := broadcastInDim S600000x1 ![0] bcast_S600000_S600000x1_0 (dst a1)
  (fun x i u => Host.scatterAdd scatter_S50000x128_S600000x1_S600000x128_1_0_0_1 x i u) main_v11 main_v12 main_v10

end Cert.ReferenceIdeal.Agg

end
-- ==== Proof.KReg0.lean ====
/-
  What the first region leaves in its two output arrays, index by index, for any entry contents of the buffers.

  The region runs over 25 points; at point t it reads rows 2000·t … 2000·t + 1999 of the aggregated features A, the whole
  weight matrix Wg and the bias row bg, forms out_lin = A_blk·Wg + bg over those 2000 rows, and writes the column sums of
  out_lin into row (t, 0, ·) of one [25,1,256] array and the column sums of out_lin·out_lin into the same row of another.
  Here: the block product and the two column sums read at an index (a sum over the 128 contracted coordinates, then over
  the 2000 rows); each input block read where it lies in its array (block coordinate = block number × block size + inner
  coordinate); what a point writes back as its block of one whole-array function; the 25 blocks cover the array, block t
  exactly the indices (t, 0, ·); hence each array at (t, 0, j) is block t's column sum at column j.
-/
import proofs.«418842_j13795434955523_2_alg».proof.Proof.KArr
import proofs.«418842_j13795434955523_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-! ## The block product at an index -/

/-- On the row axis the left operand's index is the output's row. -/
theorem lhs_ax0 (j : S2000x256.Idx) (k : dot_S2000x128_S128x256_S2000x256_1_0_0_1_n_n.contr.Idx) :
    (dot_S2000x128_S128x256_S2000x256_1_0_0_1_n_n.lhsIdx j k (0 : Fin 2)).val = (j (0 : Fin 2)).val := by
  unfold DotDims.lhsIdx
  rw [dif_neg (show ¬ (0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- On the contracted axis the left operand's index is the contraction position. -/
theorem lhs_ax1 (j : S2000x256.Idx) (k : dot_S2000x128_S128x256_S2000x256_1_0_0_1_n_n.contr.Idx) :
    (dot_S2000x128_S128x256_S2000x256_1_0_0_1_n_n.lhsIdx j k (1 : Fin 2)).val = (k ⟨0, by decide⟩).val :=
  dot_S2000x128_S128x256_S2000x256_1_0_0_1_n_n.lhsIdx_val_of_single (cl := (1 : Fin 2)) rfl j k

/-- On the contracted axis the right operand's index is the contraction position. -/
theorem rhs_ax0 (j : S2000x256.Idx) (k : dot_S2000x128_S128x256_S2000x256_1_0_0_1_n_n.contr.Idx) :
    (dot_S2000x128_S128x256_S2000x256_1_0_0_1_n_n.rhsIdx j k (0 : Fin 2)).val = (k ⟨0, by decide⟩).val :=
  dot_S2000x128_S128x256_S2000x256_1_0_0_1_n_n.rhsIdx_val_of_single (cr := (0 : Fin 2)) rfl j k

/-- On the column axis the right operand's index is the output's column. -/
theorem rhs_ax1 (j : S2000x256.Idx) (k : dot_S2000x128_S128x256_S2000x256_1_0_0_1_n_n.contr.Idx) :
    (dot_S2000x128_S128x256_S2000x256_1_0_0_1_n_n.rhsIdx j k (1 : Fin 2)).val = (j (1 : Fin 2)).val := by
  unfold DotDims.rhsIdx
  rw [dif_neg (show ¬ (1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The block product into the zero splat, at row r and column q: the sum over the 128 contracted coordinates. -/
theorem matmul_at (a : FVec Ideal S2000x128 .bf16) (b : FVec Ideal S128x256 .bf16) (r : Fin 2000) (q : Fin 256) :
    matmul dot_S2000x128_S128x256_S2000x256_1_0_0_1_n_n none a b (constant (F := Ideal) S2000x256 .f32 0x00000000#32) (ix2 r q)
      = ∑ k : Fin 128, a (ix2 r k) * b (ix2 k q) := by
  show FloatOps.matmul _ none a b _ (ix2 r q) = _
  rw [Ideal.matmul_constant_zero_apply,
    ← Equiv.sum_comp (contrEquiv1 dot_S2000x128_S128x256_S2000x256_1_0_0_1_n_n 128 rfl rfl).symm]
  refine Finset.sum_congr rfl fun k _ => ?_
  have ck := contrEquiv1_symm_val dot_S2000x128_S128x256_S2000x256_1_0_0_1_n_n 128 rfl rfl k
  have l : dot_S2000x128_S128x256_S2000x256_1_0_0_1_n_n.lhsIdx (ix2 r q)
      ((contrEquiv1 dot_S2000x128_S128x256_S2000x256_1_0_0_1_n_n 128 rfl rfl).symm k) = ix2 r k := by
    funext ax; apply Fin.ext
    match ax with
    | ⟨0, _⟩ => exact lhs_ax0 _ _
    | ⟨1, _⟩ => exact (lhs_ax1 _ _).trans ck
  have rr : dot_S2000x128_S128x256_S2000x256_1_0_0_1_n_n.rhsIdx (ix2 r q)
      ((contrEquiv1 dot_S2000x128_S128x256_S2000x256_1_0_0_1_n_n 128 rfl rfl).symm k) = ix2 k q := by
    funext ax; apply Fin.ext
    match ax with
    | ⟨0, _⟩ => exact (rhs_ax0 _ _).trans ck
    | ⟨1, _⟩ => exact rhs_ax1 _ _
  rw [l, rr]

/-! ## The body's values at an index -/

/-- out_lin of the block, at inner row r and column q. -/
theorem pay1_apply (x0 : Vec Ideal S2000x128 .bf16) (x1 : Vec Ideal S128x256 .bf16) (x2 : Vec Ideal S1x256 .f32)
    (r : Fin 2000) (q : Fin 256) :
    k0_pay1 (F := Ideal) x0 x1 x2 (ix2 r q)
      = (∑ k : Fin 128, x0 (ix2 r k) * x1 (ix2 k q)) + x2 (ix2 (0 : Fin 1) q) := by
  unfold k0_pay1
  simp only [shapeCast_self]
  rw [addf_apply, broadcastTo_1b_ab_apply, matmul_at]

/-- The reduced index (q) with row r put back on the summed axis is (r, q). -/
theorem lift_rows (q : Fin 256) (r : Fin 2000) :
    reduces_S2000x256_S256.lift (ix1 q) (r : Fin (S2000x256.size (0 : Fin 2))) = ix2 r q := by
  funext ax; apply Fin.ext
  match ax with
  | ⟨0, _⟩ => rfl
  | ⟨1, _⟩ => rfl

/-- The sum over the row axis of a [2000,256] array, at column q. -/
theorem colsum_at (src : FVec Ideal S2000x256 .f32) (hφ : FKind.Formats .f32)
    (hacc : (0x00000000#32 : BitVec 32) = 0x00000000#32) (q : Fin 256) :
    multiReduction (F := Ideal) .add [(0 : Fin 2)] S256 src 0x00000000#32 reduces_S2000x256_S256 hφ hacc (ix1 q)
      = ∑ r : Fin 2000, src (ix2 r q) :=
  (Ideal.multiReduction_add_single src 0x00000000#32 reduces_S2000x256_S256 hφ hacc (ix1 q)).trans
    (Finset.sum_congr rfl fun r _ => congrArg src (lift_rows q r))

/-- Window 3's payload: the column sums of out_lin over the block's 2000 rows. -/
theorem pay2_apply (x0 : Vec Ideal S2000x128 .bf16) (x1 : Vec Ideal S128x256 .bf16) (x2 : Vec Ideal S1x256 .f32)
    (q : Fin 256) :
    k0_pay2 (F := Ideal) x0 x1 x2 (ix3 (0 : Fin 1) (0 : Fin 1) q)
      = ∑ r : Fin 2000, ((∑ k : Fin 128, x0 (ix2 r k) * x1 (ix2 k q)) + x2 (ix2 (0 : Fin 1) q)) := by
  unfold k0_pay2
  rw [shapeCast_ab_1ab_apply, shapeCast_a_1a_apply]
  refine (colsum_at _ _ _ q).trans ?_
  refine Finset.sum_congr rfl fun r _ => ?_
  rw [pay1_apply]

/-- Window 4's payload: the column sums of out_lin squared over the block's 2000 rows. -/
theorem pay3_apply (x0 : Vec Ideal S2000x128 .bf16) (x1 : Vec Ideal S128x256 .bf16) (x2 : Vec Ideal S1x256 .f32)
    (q : Fin 256) :
    k0_pay3 (F := Ideal) x0 x1 x2 (ix3 (0 : Fin 1) (0 : Fin 1) q)
      = ∑ r : Fin 2000, ((∑ k : Fin 128, x0 (ix2 r k) * x1 (ix2 k q)) + x2 (ix2 (0 : Fin 1) q))
          * ((∑ k : Fin 128, x0 (ix2 r k) * x1 (ix2 k q)) + x2 (ix2 (0 : Fin 1) q)) := by
  unfold k0_pay3
  rw [shapeCast_ab_1ab_apply, shapeCast_a_1a_apply]
  refine (colsum_at _ _ _ q).trans ?_
  refine Finset.sum_congr rfl fun r _ => ?_
  rw [mulf_apply, pay1_apply]

/-! ## From the blocks to the arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a block number. -/
abbrev pt (t : Fin cfg0.N) : Fin 25 := ⟨t.val, t.isLt⟩

/-- The index maps over the grid: window 0 and the two outputs move with the point along their first axis, the weights and
    the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Window 0's block at point t, at inner row r, is row 2000·t + r of the aggregated features. -/
theorem agg_blk (V : Arr.Val) (c : Dev nD) (t : Fin cfg0.N) (r : Fin 2000) (k : Fin 128) :
    (iblk0 (F := Ideal) V c 0 t : Vec Ideal S2000x128 .bf16) (ix2 r k) = Arr.agg V c (Cert.Spec.rowOf (pt t) r) k := by
  obtain ⟨e00, e01, -⟩ := idx_facts t
  unfold iblk0 Arr.agg
  rw [View.read_apply]
  show V c main_v8 _ = V c main_v8 _
  congr 1
  funext a; apply Fin.ext
  match a with
  | ⟨0, _⟩ => show win0_0.index t (0 : Fin 2) * 2000 + 1 * r.val = 2000 * t.val + r.val; omega
  | ⟨1, _⟩ => show win0_0.index t (1 : Fin 2) * 128 + 1 * k.val = k.val; omega

/-- Window 1's block at any point is the weight matrix. -/
theorem wg_blk (V : Arr.Val) (c : Dev nD) (t : Fin cfg0.N) (k : Fin 128) (q : Fin 256) :
    (iblk0 (F := Ideal) V c 1 t : Vec Ideal S128x256 .bf16) (ix2 k q) = Arr.wg V c k q := by
  obtain ⟨-, -, e10, e11, -⟩ := idx_facts t
  unfold iblk0 Arr.wg
  rw [View.read_apply]
  show V c main_v10 _ = V c main_v10 _
  congr 1
  funext a; apply Fin.ext
  match a with
  | ⟨0, _⟩ => show win0_1.index t (0 : Fin 2) * 128 + 1 * k.val = k.val; omega
  | ⟨1, _⟩ => show win0_1.index t (1 : Fin 2) * 256 + 1 * q.val = q.val; omega

/-- Window 2's block at any point is the bias row. -/
theorem bg_blk (V : Arr.Val) (c : Dev nD) (t : Fin cfg0.N) (q : Fin 256) :
    (iblk0 (F := Ideal) V c 2 t : Vec Ideal S1x256 .f32) (ix2 (0 : Fin 1) q) = Arr.bg V c q := by
  obtain ⟨-, -, -, -, e20, e21, -⟩ := idx_facts t
  unfold iblk0 Arr.bg
  rw [View.read_apply]
  show V c main_v12 _ = V c main_v12 _
  congr 1
  funext a; apply Fin.ext
  match a with
  | ⟨0, _⟩ => show win0_2.index t (0 : Fin 2) * 1 + 1 * 0 = 0; omega
  | ⟨1, _⟩ => show win0_2.index t (1 : Fin 2) * 256 + 1 * q.val = q.val; omega

/-- The [25,1,256] array of the blocks' column sums of out_lin, and of its square. -/
def sumArr (V : Arr.Val) (c : Dev nD) : S25x1x256.Idx → EReal :=
  fun i => Cert.Spec.blkSum (Arr.agg V c) (Arr.wg V c) (Arr.bg V c) (i 0) (i 2)
def sumsqArr (V : Arr.Val) (c : Dev nD) : S25x1x256.Idx → EReal :=
  fun i => Cert.Spec.blkSumSq (Arr.agg V c) (Arr.wg V c) (Arr.bg V c) (i 0) (i 2)

/-- The two arrays at (t, 0, q). -/
theorem sumArr_at (V : Arr.Val) (c : Dev nD) (t : Fin 25) (q : Fin 256) :
    sumArr V c (ix3 t (0 : Fin 1) q) = Cert.Spec.blkSum (Arr.agg V c) (Arr.wg V c) (Arr.bg V c) t q := rfl
theorem sumsqArr_at (V : Arr.Val) (c : Dev nD) (t : Fin 25) (q : Fin 256) :
    sumsqArr V c (ix3 t (0 : Fin 1) q) = Cert.Spec.blkSumSq (Arr.agg V c) (Arr.wg V c) (Arr.bg V c) t q := rfl

/-- The payloads over named factors: whatever the three blocks are at their indices. -/
theorem pay2_of (x0 : Vec Ideal S2000x128 .bf16) (x1 : Vec Ideal S128x256 .bf16) (x2 : Vec Ideal S1x256 .f32)
    (A : Fin 2000 → Fin 128 → EReal) (W : Fin 128 → Fin 256 → EReal) (B : Fin 256 → EReal)
    (h0 : ∀ r k, x0 (ix2 r k) = A r k) (h1 : ∀ k q, x1 (ix2 k q) = W k q) (h2 : ∀ q, x2 (ix2 (0 : Fin 1) q) = B q)
    (q : Fin 256) :
    k0_pay2 (F := Ideal) x0 x1 x2 (ix3 (0 : Fin 1) (0 : Fin 1) q)
      = ∑ r : Fin 2000, ((∑ k : Fin 128, A r k * W k q) + B q) := by
  rw [pay2_apply]
  refine Finset.sum_congr rfl fun r _ => ?_
  rw [h2]
  congr 1
  exact Finset.sum_congr rfl fun k _ => by rw [h0, h1]
theorem pay3_of (x0 : Vec Ideal S2000x128 .bf16) (x1 : Vec Ideal S128x256 .bf16) (x2 : Vec Ideal S1x256 .f32)
    (A : Fin 2000 → Fin 128 → EReal) (W : Fin 128 → Fin 256 → EReal) (B : Fin 256 → EReal)
    (h0 : ∀ r k, x0 (ix2 r k) = A r k) (h1 : ∀ k q, x1 (ix2 k q) = W k q) (h2 : ∀ q, x2 (ix2 (0 : Fin 1) q) = B q)
    (q : Fin 256) :
    k0_pay3 (F := Ideal) x0 x1 x2 (ix3 (0 : Fin 1) (0 : Fin 1) q)
      = ∑ r : Fin 2000, ((∑ k : Fin 128, A r k * W k q) + B q) * ((∑ k : Fin 128, A r k * W k q) + B q) := by
  rw [pay3_apply]
  refine Finset.sum_congr rfl fun r _ => ?_
  have h : (∑ k : Fin 128, x0 (ix2 r k) * x1 (ix2 k q)) = ∑ k : Fin 128, A r k * W k q :=
    Finset.sum_congr rfl fun k _ => by rw [h0, h1]
  rw [h2, h]

/-- Point t's payload for window 3 at column q is block t's column sum. -/
theorem pay2_blk (V : Arr.Val) (c : Dev nD) (t : Fin cfg0.N) (q : Fin 256) :
    k0_pay2 (F := Ideal) (iblk0 V c 0 t) (iblk0 V c 1 t) (iblk0 V c 2 t) (ix3 (0 : Fin 1) (0 : Fin 1) q)
      = Cert.Spec.blkSum (Arr.agg V c) (Arr.wg V c) (Arr.bg V c) (pt t) q :=
  pay2_of _ _ _ (fun r k => Arr.agg V c (Cert.Spec.rowOf (pt t) r) k) (Arr.wg V c) (Arr.bg V c)
    (agg_blk V c t) (wg_blk V c t) (bg_blk V c t) q

/-- Point t's payload for window 4 at column q is block t's column sum of squares. -/
theorem pay3_blk (V : Arr.Val) (c : Dev nD) (t : Fin cfg0.N) (q : Fin 256) :
    k0_pay3 (F := Ideal) (iblk0 V c 0 t) (iblk0 V c 1 t) (iblk0 V c 2 t) (ix3 (0 : Fin 1) (0 : Fin 1) q)
      = Cert.Spec.blkSumSq (Arr.agg V c) (Arr.wg V c) (Arr.bg V c) (pt t) q :=
  pay3_of _ _ _ (fun r k => Arr.agg V c (Cert.Spec.rowOf (pt t) r) k) (Arr.wg V c) (Arr.bg V c)
    (agg_blk V c t) (wg_blk V c t) (bg_blk V c t) q

/-- Where point t's output block lies: (0, 0, q) of the block is (t, 0, q) of the array. -/
theorem emb3 (t : Fin cfg0.N) (q : Fin 256) :
    ((cfg0.win 3).blk t).view.emb (ix3 (0 : Fin 1) (0 : Fin 1) q) = ix3 (pt t) (0 : Fin 1) q := by
  obtain ⟨-, -, -, -, -, -, e30, e31, e32, -⟩ := idx_facts t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 256 + 1 * q.val = q.val; omega
theorem emb4 (t : Fin cfg0.N) (q : Fin 256) :
    ((cfg0.win 4).blk t).view.emb (ix3 (0 : Fin 1) (0 : Fin 1) q) = ix3 (pt t) (0 : Fin 1) q := by
  obtain ⟨-, -, -, -, -, -, -, -, -, e40, e41, e42⟩ := idx_facts t
  funext a; apply Fin.ext
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 256 + 1 * q.val = q.val; omega

/-- A [1,1,256] index is (0, 0, q). -/
theorem ex_ix3_00 (y : S1x1x256.Idx) : ∃ q : Fin 256, y = ix3 (0 : Fin 1) (0 : Fin 1) q := by
  refine ⟨y 2, ?_⟩
  have h0 : (y 0).val < 1 := (y 0).isLt
  have h1 : (y 1).val < 1 := (y 1).isLt
  funext a; apply Fin.ext
  match a with
  | ⟨0, _⟩ => show (y 0).val = 0; omega
  | ⟨1, _⟩ => show (y 1).val = 0; omega
  | ⟨2, _⟩ => rfl

/-- What point t writes back to window 3 is block t of the array of block sums. -/
theorem flushed3_eq (V : Arr.Val) (c : Dev nD) (t : Fin cfg0.N) :
    (dat0 (F := Ideal) V c).flushed 3 t = ((cfg0.win 3).blk t).view.read (Elt Ideal) (sumArr V c) := by
  show (cfg0.win 3).cut (grid0.coords t) ((dat0 (F := Ideal) V c).after 3 t) = _
  rw [after0_3]
  unfold out0_3
  rw [View.canon_unit_zero hz3]
  simp only [View.ld_unit_zero (S := S2000x128) hz2, View.ld_unit_zero (S := S128x256) hz2, View.ld_unit_zero (S := S1x256) hz2]
  funext y
  obtain ⟨q, rfl⟩ : ∃ q : Fin 256, y = ix3 (0 : Fin 1) (0 : Fin 1) q := ex_ix3_00 y
  show k0_pay2 (F := Ideal) (iblk0 V c 0 t) (iblk0 V c 1 t) (iblk0 V c 2 t) (ix3 (0 : Fin 1) (0 : Fin 1) q)
    = sumArr V c (((cfg0.win 3).blk t).view.emb (ix3 (0 : Fin 1) (0 : Fin 1) q))
  exact (pay2_blk V c t q).trans ((congrArg (sumArr V c) (emb3 t q)).trans (sumArr_at V c (pt t) q)).symm

/-- What point t writes back to window 4 is block t of the array of block sums of squares. -/
theorem flushed4_eq (V : Arr.Val) (c : Dev nD) (t : Fin cfg0.N) :
    (dat0 (F := Ideal) V c).flushed 4 t = ((cfg0.win 4).blk t).view.read (Elt Ideal) (sumsqArr V c) := by
  show (cfg0.win 4).cut (grid0.coords t) ((dat0 (F := Ideal) V c).after 4 t) = _
  rw [after0_4]
  unfold out0_4
  rw [View.canon_unit_zero hz3]
  simp only [View.ld_unit_zero (S := S2000x128) hz2, View.ld_unit_zero (S := S128x256) hz2, View.ld_unit_zero (S := S1x256) hz2]
  funext y
  obtain ⟨q, rfl⟩ : ∃ q : Fin 256, y = ix3 (0 : Fin 1) (0 : Fin 1) q := ex_ix3_00 y
  show k0_pay3 (F := Ideal) (iblk0 V c 0 t) (iblk0 V c 1 t) (iblk0 V c 2 t) (ix3 (0 : Fin 1) (0 : Fin 1) q)
    = sumsqArr V c (((cfg0.win 4).blk t).view.emb (ix3 (0 : Fin 1) (0 : Fin 1) q))
  exact (pay3_blk V c t q).trans ((congrArg (sumsqArr V c) (emb4 t q)).trans (sumsqArr_at V c (pt t) q)).symm

/-- An index of the array is in point t's block of window 3 iff each coordinate is in the block's range. -/
theorem mem_blk3 (t : Fin cfg0.N) (i : S25x1x256.Idx) :
    i ∈ ((cfg0.win 3).blk t).view.set ↔ ∀ a : Fin 3, win0_3.index t a * S1x1x256.size a ≤ (i a).val ∧ (i a).val < win0_3.index t a * S1x1x256.size a + S1x1x256.size a := by
  show i ∈ ((View.whole main_v16_0).slice (win0_3.rect t)).set ↔ _
  rw [View.set_slice_whole, Rect.mem_set_unit]
  exact Iff.rfl
theorem mem_blk4 (t : Fin cfg0.N) (i : S25x1x256.Idx) :
    i ∈ ((cfg0.win 4).blk t).view.set ↔ ∀ a : Fin 3, win0_4.index t a * S1x1x256.size a ≤ (i a).val ∧ (i a).val < win0_4.index t a * S1x1x256.size a + S1x1x256.size a := by
  show i ∈ ((View.whole main_v16_1).slice (win0_4.rect t)).set ↔ _
  rw [View.set_slice_whole, Rect.mem_set_unit]
  exact Iff.rfl

/-- Block t covers exactly the indices (t, 0, ·): every index of the array is in the block of its first coordinate. -/
theorem cover3 (i : S25x1x256.Idx) : ∃ t : Fin cfg0.N, (cfg0.win 3).flush t = true ∧ i ∈ ((cfg0.win 3).blk t).view.set := by
  have h0 : (i 0).val < 25 := (i 0).isLt
  have h1 : (i 1).val < 1 := (i 1).isLt
  have h2 : (i 2).val < 256 := (i 2).isLt
  refine ⟨⟨(i 0).val, h0⟩, flush0_3 _, ?_⟩
  obtain ⟨-, -, -, -, -, -, e30', e31, e32, -⟩ := idx_facts ⟨(i 0).val, h0⟩
  have e30 : win0_3.index ⟨(i 0).val, h0⟩ (0 : Fin 3) = (i 0).val := e30'
  rw [mem_blk3]
  intro a
  match a with
  | ⟨0, _⟩ => show win0_3.index ⟨(i 0).val, h0⟩ (0 : Fin 3) * 1 ≤ (i 0).val ∧ (i 0).val < win0_3.index ⟨(i 0).val, h0⟩ (0 : Fin 3) * 1 + 1; rw [e30]; omega
  | ⟨1, _⟩ => show win0_3.index ⟨(i 0).val, h0⟩ (1 : Fin 3) * 1 ≤ (i 1).val ∧ (i 1).val < win0_3.index ⟨(i 0).val, h0⟩ (1 : Fin 3) * 1 + 1; rw [e31]; omega
  | ⟨2, _⟩ => show win0_3.index ⟨(i 0).val, h0⟩ (2 : Fin 3) * 256 ≤ (i 2).val ∧ (i 2).val < win0_3.index ⟨(i 0).val, h0⟩ (2 : Fin 3) * 256 + 256; rw [e32]; omega
theorem cover4 (i : S25x1x256.Idx) : ∃ t : Fin cfg0.N, (cfg0.win 4).flush t = true ∧ i ∈ ((cfg0.win 4).blk t).view.set := by
  have h0 : (i 0).val < 25 := (i 0).isLt
  have h1 : (i 1).val < 1 := (i 1).isLt
  have h2 : (i 2).val < 256 := (i 2).isLt
  refine ⟨⟨(i 0).val, h0⟩, flush0_4 _, ?_⟩
  obtain ⟨-, -, -, -, -, -, -, -, -, e40', e41, e42⟩ := idx_facts ⟨(i 0).val, h0⟩
  have e40 : win0_4.index ⟨(i 0).val, h0⟩ (0 : Fin 3) = (i 0).val := e40'
  rw [mem_blk4]
  intro a
  match a with
  | ⟨0, _⟩ => show win0_4.index ⟨(i 0).val, h0⟩ (0 : Fin 3) * 1 ≤ (i 0).val ∧ (i 0).val < win0_4.index ⟨(i 0).val, h0⟩ (0 : Fin 3) * 1 + 1; rw [e40]; omega
  | ⟨1, _⟩ => show win0_4.index ⟨(i 0).val, h0⟩ (1 : Fin 3) * 1 ≤ (i 1).val ∧ (i 1).val < win0_4.index ⟨(i 0).val, h0⟩ (1 : Fin 3) * 1 + 1; rw [e41]; omega
  | ⟨2, _⟩ => show win0_4.index ⟨(i 0).val, h0⟩ (2 : Fin 3) * 256 ≤ (i 2).val ∧ (i 2).val < win0_4.index ⟨(i 0).val, h0⟩ (2 : Fin 3) * 256 + 256; rw [e42]; omega

/-! ## What region 0 leaves in its two output arrays -/

/-- The array of window 3 after the region: at (t, 0, j), block t's column sum of out_lin. -/
theorem sum_at (V : Arr.Val) (c : Dev nD) (t : Fin 25) (j : Fin 256) :
    ((Gen.dat0 (F := Ideal) V c).arrAt (3 : Fin cfg0.W) cfg0.N : S25x1x256.Idx → EReal) (ix3 t (0 : Fin 1) j)
      = Cert.Spec.blkSum (Arr.agg V c) (Arr.wg V c) (Arr.bg V c) t j :=
  (congrFun ((dat0 (F := Ideal) V c).arrAt_eq_of_cover 3 (sumArr V c) (fun t _ => flushed3_eq V c t) cover3) (ix3 t (0 : Fin 1) j)).trans
    (sumArr_at V c t j)

/-- The array of window 4 after the region: at (t, 0, j), block t's column sum of out_lin squared. -/
theorem sumsq_at (V : Arr.Val) (c : Dev nD) (t : Fin 25) (j : Fin 256) :
    ((Gen.dat0 (F := Ideal) V c).arrAt (4 : Fin cfg0.W) cfg0.N : S25x1x256.Idx → EReal) (ix3 t (0 : Fin 1) j)
      = Cert.Spec.blkSumSq (Arr.agg V c) (Arr.wg V c) (Arr.bg V c) t j :=
  (congrFun ((dat0 (F := Ideal) V c).arrAt_eq_of_cover 4 (sumsqArr V c) (fun t _ => flushed4_eq V c t) cover4) (ix3 t (0 : Fin 1) j)).trans
    (sumsqArr_at V c t j)

end Cert.KernelIdeal.Reg0

end
-- ==== Proof.KReg1.lean ====
/-
  What the second region (the final kernel: a grid of 25 points, each one block of 2000 rows) leaves in its result
  array, index by index, for any contents of the arrays it finds on entry. At row i and column j:
    (Σ_k X[i,k]·Wsc[k,j] + bsc[j]) + ELU( ((Σ_k A[i,k]·Wg[k,j] + bg[j] − mean[j]) · rsqrt(var[j] + ε)) · γ[j] + β[j] ),
  with mean and var the column statistics the region is handed. First the value one point stores, read at a row and
  a column of its block (two 128-term products, four row broadcasts, pointwise operations); then each input block read
  where the result's block sits (rows 2000·t + p of the two row-blocked arrays, the whole of every other array); then
  the 25 blocks cover the array, row r lying in block r / 2000.
-/
import proofs.«418842_j13795434955523_2_alg».proof.Proof.KArr
import proofs.«418842_j13795434955523_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

/-- The dimension numbers of both products: rows × contraction times contraction × columns. -/
abbrev DD : DotDims S2000x128 S128x256 S2000x256 := dot_S2000x128_S128x256_S2000x256_1_0_0_1_n_n

theorem lhs_row (j : S2000x256.Idx) (k : DD.contr.Idx) :
    (dot_S2000x128_S128x256_S2000x256_1_0_0_1_n_n.lhsIdx j k 0).val = (j 0).val := rfl
theorem lhs_contr (j : S2000x256.Idx) (k : DD.contr.Idx) :
    (dot_S2000x128_S128x256_S2000x256_1_0_0_1_n_n.lhsIdx j k 1).val = (k ⟨0, by decide⟩).val :=
  DotDims.lhsIdx_val_of_single (d := dot_S2000x128_S128x256_S2000x256_1_0_0_1_n_n) rfl j k
theorem rhs_contr (j : S2000x256.Idx) (k : DD.contr.Idx) :
    (dot_S2000x128_S128x256_S2000x256_1_0_0_1_n_n.rhsIdx j k 0).val = (k ⟨0, by decide⟩).val :=
  DotDims.rhsIdx_val_of_single (d := dot_S2000x128_S128x256_S2000x256_1_0_0_1_n_n) rfl j k
theorem rhs_col (j : S2000x256.Idx) (k : DD.contr.Idx) :
    (dot_S2000x128_S128x256_S2000x256_1_0_0_1_n_n.rhsIdx j k 1).val = (j 1).val := rfl

/-- A block product into the zero accumulator, read at (p, q): the sum over the 128 contracted coordinates. -/
theorem matmul_at (x : FVec Ideal S2000x128 .bf16) (w : FVec Ideal S128x256 .bf16) (p : Fin 2000) (q : Fin 256) :
    matmul DD none x w (constant (F := Ideal) S2000x256 .f32 0x00000000#32) (ix2 p q)
      = ∑ k : Fin 128, x (ix2 p k) * w (ix2 k q) := by
  refine (Ideal.matmul_constant_zero_apply DD none x w (ix2 p q)).trans ?_
  rw [← Equiv.sum_comp (contrEquiv1 DD 128 rfl rfl).symm]
  refine Finset.sum_congr rfl fun k _ => ?_
  have hk := contrEquiv1_symm_val DD 128 rfl rfl k
  have hl : DD.lhsIdx (ix2 p q) ((contrEquiv1 DD 128 rfl rfl).symm k) = ix2 p k := by
    funext a; apply Fin.ext
    match a with
    | ⟨0, _⟩ => exact lhs_row _ _
    | ⟨1, _⟩ => exact (lhs_contr _ _).trans hk
  have hr : DD.rhsIdx (ix2 p q) ((contrEquiv1 DD 128 rfl rfl).symm k) = ix2 k q := by
    funext a; apply Fin.ext
    match a with
    | ⟨0, _⟩ => exact (rhs_contr _ _).trans hk
    | ⟨1, _⟩ => exact rhs_col _ _
  rw [hl, hr]

/-- The two pointwise transcendental operations read at an index. -/
theorem exp_at {s : Shape} {φ : FTy} (v : FVec Ideal s φ) (i : s.Idx) : exp v i = Ideal.exp (v i) := rfl
theorem rsqrt_at {s : Shape} {φ : FTy} (v : FVec Ideal s φ) (i : s.Idx) : rsqrt v i = Ideal.rsqrt (v i) := rfl

/-- What one grid point's body stores, read at row p and column q of its block: the shortcut product plus its bias,
    plus ELU of the normalised, scaled and shifted linear output. The blocks: x0 the aggregated rows, x1 the node
    rows, x2 / x8 the two weight matrices, x3 the bias, x4 the mean, x5 the variance, x6 the scale, x7 the shift,
    x9 the shortcut bias. -/
theorem pay_at (x0 x1 : Vec Ideal S2000x128 .bf16) (x2 : Vec Ideal S128x256 .bf16)
    (x3 x4 x5 x6 x7 : Vec Ideal S1x256 .f32) (x8 : Vec Ideal S128x256 .bf16) (x9 : Vec Ideal S1x256 .f32)
    (p : Fin 2000) (q : Fin 256) :
    k1_pay1 (k1_pay2 x0 x2 x3 x5 x4 x6 x7) (k1_pay3 x1) x8 x9 (ix2 p q)
      = ((∑ k : Fin 128, x1 (ix2 p k) * x8 (ix2 k q)) + x9 (ix2 (0 : Fin 1) q))
        + Cert.Spec.eluK
            (((((∑ k : Fin 128, x0 (ix2 p k) * x2 (ix2 k q)) + x3 (ix2 (0 : Fin 1) q)) - x4 (ix2 (0 : Fin 1) q))
                * Ideal.rsqrt (x5 (ix2 (0 : Fin 1) q) + Cert.Spec.epsF)) * x6 (ix2 (0 : Fin 1) q)
              + x7 (ix2 (0 : Fin 1) q)) := by
  unfold k1_pay1 k1_pay2 k1_pay3
  simp only [shapeCast_self]
  simp only [exp_at, rsqrt_at, addf_apply, mulf_apply, subf_apply, select_apply, cmpf_apply, broadcast_apply,
    broadcastTo_1b_ab_apply, matmul_at]
  rfl

/-! ## From the blocks to the array -/

theorem zero_offsets : (![0, 0] : Fin 2 → Nat) = fun _ => 0 := funext fun a => by fin_cases a <;> rfl

/-- The printed index maps, decided over the 25 grid points: the row-blocked windows (the aggregated rows, the node
    rows, the result) sit at block (t, 0), every other window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

variable (V : Arr.Val) (c : Dev nD)

/-- The whole result array as ONE function of the arrays the region finds: at (i, j) the shortcut plus ELU of the
    batch-normalised linear output, from the column statistics the region is handed. -/
def G : S50000x256.Idx → EReal := fun i =>
  Cert.Spec.finalOf (Arr.agg V c) (Arr.xb V c) (Arr.wg V c) (Arr.wsc V c) (Arr.bg V c) (Arr.gam V c) (Arr.bet V c)
    (Arr.bsc V c) (Arr.mean V c) (Arr.var V c) (i 0) (i 1)

/-- Row p of block t is row 2000·t + p of the array. -/
def row (t : Fin cfg1.N) (p : Fin 2000) : Fin 50000 := ⟨2000 * t.val + p.val, by have := t.isLt; have : t.val < 25 := this; omega⟩

/-- The aggregated rows' block at point t reads the array's rows 2000·t + p. -/
theorem agg_blk (t : Fin cfg1.N) (p : Fin 2000) (k : Fin 128) :
    (iblk1 (F := Ideal) V c 0 t : S2000x128.Idx → EReal) (ix2 p k) = Arr.agg V c (row t p) k := by
  obtain ⟨e0, e1, -⟩ := idx_facts t
  show V c main_v8 (((cfg1.win 0).blk t).view.emb (ix2 p k)) = V c main_v8 (ix2 (row t p) k)
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- The node rows' block at point t reads the array's rows 2000·t + p. -/
theorem xb_blk (t : Fin cfg1.N) (p : Fin 2000) (k : Fin 128) :
    (iblk1 (F := Ideal) V c 1 t : S2000x128.Idx → EReal) (ix2 p k) = Arr.xb V c (row t p) k := by
  have e := idx_facts t
  show V c main_v9 (((cfg1.win 1).blk t).view.emb (ix2 p k)) = V c main_v9 (ix2 (row t p) k)
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

/-- The first weight matrix is fetched whole at every point. -/
theorem wg_blk (t : Fin cfg1.N) (k : Fin 128) (q : Fin 256) :
    (iblk1 (F := Ideal) V c 2 t : S128x256.Idx → EReal) (ix2 k q) = Arr.wg V c k q := by
  have e := idx_facts t
  show V c main_v10 (((cfg1.win 2).blk t).view.emb (ix2 k q)) = V c main_v10 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 256 + 1 * q.val = q.val; omega

/-- The shortcut's weight matrix is fetched whole at every point. -/
theorem wsc_blk (t : Fin cfg1.N) (k : Fin 128) (q : Fin 256) :
    (iblk1 (F := Ideal) V c 8 t : S128x256.Idx → EReal) (ix2 k q) = Arr.wsc V c k q := by
  have e := idx_facts t
  show V c main_v11 (((cfg1.win 8).blk t).view.emb (ix2 k q)) = V c main_v11 (ix2 k q)
  refine congrArg _ (funext fun a => Fin.ext ?_)
  match a with
  | ⟨0, _⟩ => show win1_8.index t (0 : Fin 2) * 128 + 1 * k.val = k.val; omega
  | ⟨1, _⟩ => show win1_8.index t (1 : Fin 2) * 256 + 1 * q.val = q.val; omega

/-- The bias row is fetched whole. -/
theorem bg_blk (t : Fin cfg1.N) (q : Fin 256) :
    (iblk1 (F := Ideal) V c 3 t : S1x256.Idx → EReal) (ix2 (0 : Fin 1) q) = Arr.bg V c q := by
  have e := idx_facts t
  show V c main_v12 (((cfg1.win 3).blk t).view.emb (ix2 (0 : Fin 1) q)) = V c main_v12 (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

/-- The column means are fetched whole. -/
theorem mean_blk (t : Fin cfg1.N) (q : Fin 256) :
    (iblk1 (F := Ideal) V c 4 t : S1x256.Idx → EReal) (ix2 (0 : Fin 1) q) = Arr.mean V c q := by
  have e := idx_facts t
  show V c main_v27 (((cfg1.win 4).blk t).view.emb (ix2 (0 : Fin 1) q)) = V c main_v27 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

/-- The column variances are fetched whole. -/
theorem var_blk (t : Fin cfg1.N) (q : Fin 256) :
    (iblk1 (F := Ideal) V c 5 t : S1x256.Idx → EReal) (ix2 (0 : Fin 1) q) = Arr.var V c q := by
  have e := idx_facts t
  show V c main_v28 (((cfg1.win 5).blk t).view.emb (ix2 (0 : Fin 1) q)) = V c main_v28 (ix2 (0 : Fin 1) q)
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * q.val = q.val; omega

/-- The scale row is fetched whole. -/
theorem gam_blk (t : Fin cfg1.N) (q : Fin 256) :
    (iblk1 (F := Ideal) V c 6 t : S1x256.Idx → EReal) (ix2 (0 : Fin 1) q) = Arr.gam V c q := by
  have e := idx_facts t
  show V c main_v13 (((cfg1.win 6).blk t).view.emb (ix2 (0 : Fin 1) q)) = V c main_v13 (ix2 (0 : Fin 1) q)
  refine congrArg _ (funext fun a => Fin.ext ?_)
  match a with
  | ⟨0, _⟩ => show win1_6.index t (0 : Fin 2) * 1 + 1 * 0 = 0; omega
  | ⟨1, _⟩ => show win1_6.index t (1 : Fin 2) * 256 + 1 * q.val = q.val; omega

/-- The shift row is fetched whole. -/
theorem bet_blk (t : Fin cfg1.N) (q : Fin 256) :
    (iblk1 (F := Ideal) V c 7 t : S1x256.Idx → EReal) (ix2 (0 : Fin 1) q) = Arr.bet V c q := by
  have e := idx_facts t
  show V c main_v14 (((cfg1.win 7).blk t).view.emb (ix2 (0 : Fin 1) q)) = V c main_v14 (ix2 (0 : Fin 1) q)
  refine congrArg _ (funext fun a => Fin.ext ?_)
  match a with
  | ⟨0, _⟩ => show win1_7.index t (0 : Fin 2) * 1 + 1 * 0 = 0; omega
  | ⟨1, _⟩ => show win1_7.index t (1 : Fin 2) * 256 + 1 * q.val = q.val; omega

/-- The shortcut's bias row is fetched whole. -/
theorem bsc_blk (t : Fin cfg1.N) (q : Fin 256) :
    (iblk1 (F := Ideal) V c 9 t : S1x256.Idx → EReal) (ix2 (0 : Fin 1) q) = Arr.bsc V c q := by
  have e := idx_facts t
  show V c main_v15 (((cfg1.win 9).blk t).view.emb (ix2 (0 : Fin 1) q)) = V c main_v15 (ix2 (0 : Fin 1) q)
  refine congrArg _ (funext fun a => Fin.ext ?_)
  match a with
  | ⟨0, _⟩ => show win1_9.index t (0 : Fin 2) * 1 + 1 * 0 = 0; omega
  | ⟨1, _⟩ => show win1_9.index t (1 : Fin 2) * 256 + 1 * q.val = q.val; omega

/-- The result's block at point t sits at rows 2000·t + p. -/
theorem out_emb (t : Fin cfg1.N) (p : Fin 2000) (q : Fin 256) :
    (((cfg1.win 10).blk t).view.emb (ix2 p q) : S50000x256.Idx) = ix2 (row t p) q := by
  have e := idx_facts t
  refine funext fun a => Fin.ext ?_
  match a with
  | ⟨0, _⟩ => show win1_10.index t (0 : Fin 2) * 2000 + 1 * p.val = 2000 * t.val + p.val; omega
  | ⟨1, _⟩ => show win1_10.index t (1 : Fin 2) * 256 + 1 * q.val = q.val; omega

/-- WHAT POINT t WRITES BACK is block t of G. -/
theorem flushed_eq (t : Fin cfg1.N) :
    (dat1 (F := Ideal) V c).flushed 10 t = ((cfg1.win 10).blk t).view.read (Elt Ideal) (G V c) := by
  show (cfg1.win 10).cut (grid1.coords t) ((dat1 (F := Ideal) V c).after 10 t) = _
  rw [after1_10]
  unfold out1_10
  rw [View.canon_unit_zero zero_offsets]
  simp only [View.ld_unit_zero (S := S2000x128) zero_offsets, View.ld_unit_zero (S := S128x256) zero_offsets,
    View.ld_unit_zero (S := S1x256) zero_offsets]
  funext y
  obtain ⟨p, q, rfl⟩ : ∃ (p : Fin 2000) (q : Fin 256), y = ix2 p q := ⟨y 0, y 1, eq_ix2 y⟩
  refine (pay_at (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t) (iblk1 (F := Ideal) V c 6 t)
    (iblk1 (F := Ideal) V c 7 t) (iblk1 (F := Ideal) V c 8 t) (iblk1 (F := Ideal) V c 9 t) p q).trans ?_
  show _ = G V c (((cfg1.win 10).blk t).view.emb (ix2 p q))
  rw [out_emb t p q]
  simp only [agg_blk V c t, xb_blk V c t, wg_blk V c t, wsc_blk V c t, bg_blk V c t, mean_blk V c t, var_blk V c t,
    gam_blk V c t, bet_blk V c t, bsc_blk V c t]
  rfl

/-- An index of the array is in point t's block iff each coordinate is in the block's range on its axis. -/
theorem mem_blk (t : Fin cfg1.N) (i : S50000x256.Idx) :
    i ∈ ((cfg1.win 10).blk t).view.set ↔ ∀ a : Fin 2, win1_10.index t a * S2000x256.size a ≤ (i a).val
      ∧ (i a).val < win1_10.index t a * S2000x256.size a + S2000x256.size a := by
  show i ∈ ((View.whole main_v29).slice (win1_10.rect t)).set ↔ _
  rw [View.set_slice_whole, Rect.mem_set_unit]
  exact Iff.rfl

/-- Every index of the result is written back by some point: row r by point r / 2000. -/
theorem covered (i : S50000x256.Idx) :
    ∃ t : Fin cfg1.N, (cfg1.win 10).flush t = true ∧ i ∈ ((cfg1.win 10).blk t).view.set := by
  have hi0 : (i 0).val < 50000 := (i 0).isLt
  have hi1 : (i 1).val < 256 := (i 1).isLt
  obtain ⟨t, ht⟩ : ∃ t : Fin cfg1.N, t.val = (i 0).val / 2000 :=
    ⟨(⟨(i 0).val / 2000, by omega⟩ : Fin 25), rfl⟩
  have e := idx_facts t
  refine ⟨t, flush1_10 t, ?_⟩
  rw [mem_blk]
  intro a
  match a with
  | ⟨0, _⟩ =>
    show win1_10.index t (0 : Fin 2) * 2000 ≤ (i 0).val ∧ (i 0).val < win1_10.index t (0 : Fin 2) * 2000 + 2000
    omega
  | ⟨1, _⟩ =>
    show win1_10.index t (1 : Fin 2) * 256 ≤ (i 1).val ∧ (i 1).val < win1_10.index t (1 : Fin 2) * 256 + 256
    omega

/-- THE ARRAY after the region: G, everywhere. -/
theorem final_arr : (dat1 (F := Ideal) V c).arrAt 10 cfg1.N = G V c :=
  (dat1 (F := Ideal) V c).arrAt_eq_of_cover 10 (G V c) (fun t _ => flushed_eq V c t) covered

/-- The region's result, index by index, for any entry contents. -/
theorem final_at (V : Arr.Val) (c : Dev nD) (i : Fin 50000) (j : Fin 256) :
    ((Gen.dat1 (F := Ideal) V c).arrAt (10 : Fin cfg1.W) cfg1.N : S50000x256.Idx → EReal) (ix2 i j)
      = Cert.Spec.finalOf (Arr.agg V c) (Arr.xb V c) (Arr.wg V c) (Arr.wsc V c) (Arr.bg V c) (Arr.gam V c) (Arr.bet V c) (Arr.bsc V c)
          (Arr.mean V c) (Arr.var V c) i j := by
  rw [final_arr V c]
  rfl

end Cert.KernelIdeal.Reg1
end
-- ==== Proof.KHostIn.lean ====
/-
  What the host operations leave in the arrays the two regions read, in terms of the launch memory.

  Before the first region the program splits the edge list into sources and destinations, gathers the source rows of the
  node features (a row out of range replaced by the NaN word), adds them into the destination rows of a zero array — the
  aggregated features —, rounds the aggregated features, the node features and the two weight matrices to the narrow
  float format, and recasts the four row vectors of 256 entries as one-row matrices. At the exact instance a rounding
  is the identity, and a one-row matrix read at (0, j) is the vector's entry j. The first region only reads these
  arrays (an input window is never written back), and the operations between the two regions write other buffers; so
  the second region finds them as the first did.

  Each stretch of operations is first read from an arbitrary valuation of the buffers (one fact per buffer it writes or
  leaves), then the facts are chained from the launch memory.
-/
import proofs.«418842_j13795434955523_2_alg».proof.Proof.KArr
import proofs.«418842_j13795434955523_2_alg».proof.Proof.AggDefs
import Idealize.ShloMosaic.Lib.StableHlo.Run
import Idealize.ShloMosaic.Lib.ValueIdx
import Idealize.ShloMosaic.Lib.Pipeline.Value
import Idealize.ShloMosaic.Lib.Pipeline.Cells

set_option maxRecDepth 16384

noncomputable section

namespace Cert.KernelIdeal.HostIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Facts₀ Cert.KernelIdeal.Facts

/-! ## Each stretch of host operations, from an arbitrary valuation `V` of the buffers -/

section Stretch
variable (V : Valuation τ sig (Elt Ideal))

/-- The scatter-add of the edges' rows `u` into the rows `d` names of a zero array. -/
def scat (d : IVec S600000 32) (u : FVec Ideal S600000x128 .f32) : FVec Ideal S50000x128 .f32 :=
  Host.scatterAdd scatter_S50000x128_S600000x1_S600000x128_1_0_0_1
    (broadcastInDim S50000x128 ![] bcast_S_S50000x128 (constant S_ .f32 0x00000000#32 : FVec Ideal S_ .f32))
    (broadcastInDim S600000x1 ![0] bcast_S600000_S600000x1_0 d) u

/-- The aggregation is the scatter-add of the gathered rows of the sources into the destinations. -/
theorem agg_eq_scat (a0 : FVec Ideal S50000x128 .f32) (a1 : IVec S2x600000 32) :
    Agg.agg (F := Ideal) a0 a1 = scat (Agg.dst a1) (Agg.take a0 (Agg.src a1)) := by
  unfold Agg.agg scat
  rfl

/-! ### The first stretch: the edge list split into sources and destinations; no argument is written -/

theorem ops0_v1 : StableHlo.after Gen.hostOps0 V (Proc.devRef .tc main_v1)
    = (Agg.src (V (Proc.devRef .tc main_arg1) : IVec S2x600000 32) : IVec S600000 32) := by
  after_results
  rfl
theorem ops0_v3 : StableHlo.after Gen.hostOps0 V (Proc.devRef .tc main_v3)
    = (Agg.dst (V (Proc.devRef .tc main_arg1) : IVec S2x600000 32) : IVec S600000 32) := by
  after_results
  rfl
theorem ops0_arg0 : StableHlo.after Gen.hostOps0 V (Proc.devRef .tc main_arg0) = V (Proc.devRef .tc main_arg0) := by after_results
theorem ops0_arg2 : StableHlo.after Gen.hostOps0 V (Proc.devRef .tc main_arg2) = V (Proc.devRef .tc main_arg2) := by after_results
theorem ops0_arg3 : StableHlo.after Gen.hostOps0 V (Proc.devRef .tc main_arg3) = V (Proc.devRef .tc main_arg3) := by after_results
theorem ops0_arg4 : StableHlo.after Gen.hostOps0 V (Proc.devRef .tc main_arg4) = V (Proc.devRef .tc main_arg4) := by after_results
theorem ops0_arg5 : StableHlo.after Gen.hostOps0 V (Proc.devRef .tc main_arg5) = V (Proc.devRef .tc main_arg5) := by after_results
theorem ops0_arg6 : StableHlo.after Gen.hostOps0 V (Proc.devRef .tc main_arg6) = V (Proc.devRef .tc main_arg6) := by after_results
theorem ops0_arg7 : StableHlo.after Gen.hostOps0 V (Proc.devRef .tc main_arg7) = V (Proc.devRef .tc main_arg7) := by after_results

/-! ### The second stretch: the gathered rows; neither the destinations nor an argument is written -/

theorem ops1_v4 : StableHlo.after Gen.hostOps0_1 V (Proc.devRef .tc main_v4)
    = (Agg.take (F := Ideal) (V (Proc.devRef .tc main_arg0) : FVec Ideal S50000x128 .f32)
        (V (Proc.devRef .tc main_v1) : IVec S600000 32) : FVec Ideal S600000x128 .f32) := by
  after_results_simp
  simp only [StableHlo.TRef.ofBuf, StableHlo.TRef.toBuf, cast_eq]
  unfold Agg.take Agg.inRange Agg.wrapped
  rfl
theorem ops1_v3 : StableHlo.after Gen.hostOps0_1 V (Proc.devRef .tc main_v3) = V (Proc.devRef .tc main_v3) := by after_results_simp
theorem ops1_arg0 : StableHlo.after Gen.hostOps0_1 V (Proc.devRef .tc main_arg0) = V (Proc.devRef .tc main_arg0) := by after_results_simp
theorem ops1_arg2 : StableHlo.after Gen.hostOps0_1 V (Proc.devRef .tc main_arg2) = V (Proc.devRef .tc main_arg2) := by after_results_simp
theorem ops1_arg3 : StableHlo.after Gen.hostOps0_1 V (Proc.devRef .tc main_arg3) = V (Proc.devRef .tc main_arg3) := by after_results_simp
theorem ops1_arg4 : StableHlo.after Gen.hostOps0_1 V (Proc.devRef .tc main_arg4) = V (Proc.devRef .tc main_arg4) := by after_results_simp
theorem ops1_arg5 : StableHlo.after Gen.hostOps0_1 V (Proc.devRef .tc main_arg5) = V (Proc.devRef .tc main_arg5) := by after_results_simp
theorem ops1_arg6 : StableHlo.after Gen.hostOps0_1 V (Proc.devRef .tc main_arg6) = V (Proc.devRef .tc main_arg6) := by after_results_simp
theorem ops1_arg7 : StableHlo.after Gen.hostOps0_1 V (Proc.devRef .tc main_arg7) = V (Proc.devRef .tc main_arg7) := by after_results_simp

/-! ### The third stretch: the scatter-add, the roundings to the narrow format, the row vectors as one-row matrices -/

theorem ops2_v8 : StableHlo.after Gen.hostOps0_2 V (Proc.devRef .tc main_v8)
    = (truncf .bf16 (scat (V (Proc.devRef .tc main_v3) : IVec S600000 32) (V (Proc.devRef .tc main_v4) : FVec Ideal S600000x128 .f32))
        bitsLt_bf16_f32 : FVec Ideal S50000x128 .bf16) := by
  after_results
  rfl
theorem ops2_v9 : StableHlo.after Gen.hostOps0_2 V (Proc.devRef .tc main_v9)
    = (truncf .bf16 (V (Proc.devRef .tc main_arg0) : FVec Ideal S50000x128 .f32) bitsLt_bf16_f32 : FVec Ideal S50000x128 .bf16) := by
  after_results
theorem ops2_v10 : StableHlo.after Gen.hostOps0_2 V (Proc.devRef .tc main_v10)
    = (truncf .bf16 (V (Proc.devRef .tc main_arg2) : FVec Ideal S128x256 .f32) bitsLt_bf16_f32 : FVec Ideal S128x256 .bf16) := by
  after_results
theorem ops2_v11 : StableHlo.after Gen.hostOps0_2 V (Proc.devRef .tc main_v11)
    = (truncf .bf16 (V (Proc.devRef .tc main_arg6) : FVec Ideal S128x256 .f32) bitsLt_bf16_f32 : FVec Ideal S128x256 .bf16) := by
  after_results
theorem ops2_v12 : StableHlo.after Gen.hostOps0_2 V (Proc.devRef .tc main_v12)
    = (shapeCast S1x256 (V (Proc.devRef .tc main_arg3) : FVec Ideal S256 .f32) shapeCasts_S256_S1x256 : FVec Ideal S1x256 .f32) := by
  after_results
  rfl
theorem ops2_v13 : StableHlo.after Gen.hostOps0_2 V (Proc.devRef .tc main_v13)
    = (shapeCast S1x256 (V (Proc.devRef .tc main_arg4) : FVec Ideal S256 .f32) shapeCasts_S256_S1x256 : FVec Ideal S1x256 .f32) := by
  after_results
  rfl
theorem ops2_v14 : StableHlo.after Gen.hostOps0_2 V (Proc.devRef .tc main_v14)
    = (shapeCast S1x256 (V (Proc.devRef .tc main_arg5) : FVec Ideal S256 .f32) shapeCasts_S256_S1x256 : FVec Ideal S1x256 .f32) := by
  after_results
  rfl
theorem ops2_v15 : StableHlo.after Gen.hostOps0_2 V (Proc.devRef .tc main_v15)
    = (shapeCast S1x256 (V (Proc.devRef .tc main_arg7) : FVec Ideal S256 .f32) shapeCasts_S256_S1x256 : FVec Ideal S1x256 .f32) := by
  after_results
  rfl

/-! ### The stretch between the two regions writes none of the arrays the regions read -/

theorem ops3_v8 : StableHlo.after Gen.hostOps1 V (Proc.devRef .tc main_v8) = V (Proc.devRef .tc main_v8) := by after_results
theorem ops3_v9 : StableHlo.after Gen.hostOps1 V (Proc.devRef .tc main_v9) = V (Proc.devRef .tc main_v9) := by after_results
theorem ops3_v10 : StableHlo.after Gen.hostOps1 V (Proc.devRef .tc main_v10) = V (Proc.devRef .tc main_v10) := by after_results
theorem ops3_v11 : StableHlo.after Gen.hostOps1 V (Proc.devRef .tc main_v11) = V (Proc.devRef .tc main_v11) := by after_results
theorem ops3_v12 : StableHlo.after Gen.hostOps1 V (Proc.devRef .tc main_v12) = V (Proc.devRef .tc main_v12) := by after_results
theorem ops3_v13 : StableHlo.after Gen.hostOps1 V (Proc.devRef .tc main_v13) = V (Proc.devRef .tc main_v13) := by after_results
theorem ops3_v14 : StableHlo.after Gen.hostOps1 V (Proc.devRef .tc main_v14) = V (Proc.devRef .tc main_v14) := by after_results
theorem ops3_v15 : StableHlo.after Gen.hostOps1 V (Proc.devRef .tc main_v15) = V (Proc.devRef .tc main_v15) := by after_results

end Stretch

/-- A row vector of 256 entries recast as a one-row matrix, read at (0, j), is its entry j. -/
theorem reshape_row (v : FVec Ideal S256 .f32) (j : Fin 256) :
    (shapeCast S1x256 v shapeCasts_S256_S1x256 : FVec Ideal S1x256 .f32) (ix2 (0 : Fin 1) j) = v (ix1 j) :=
  shapeCast_apply v _ (ix2 (0 : Fin 1) j) (ix1 j) (by
    rw [Shape.rowMajor_val_one, Shape.rowMajor_val_two]
    show j.val = (0 : Fin 1).val * 256 + j.val
    simp)

/-! ## The run: the launch memory `m`, the three stretches before the first region, the first region, the stretch between -/

variable (m : (ℓ : Loc nD τ sig) → Buf (Elt Ideal) ℓ) (ρ : Dev nD → PrngReg) (c : Dev nD)

/-! ### The arguments as launched -/

/-- The node features x : [50000, 128]. -/
abbrev arg0 : FVec Ideal S50000x128 .f32 := m ((c : Thread nD τ).loc main_arg0)
/-- The edge list e : [2, 600000]. -/
abbrev arg1 : IVec S2x600000 32 := m ((c : Thread nD τ).loc main_arg1)
/-- The weight Wg : [128, 256]. -/
abbrev arg2 : FVec Ideal S128x256 .f32 := m ((c : Thread nD τ).loc main_arg2)
/-- The bias bg : [256]. -/
abbrev arg3 : FVec Ideal S256 .f32 := m ((c : Thread nD τ).loc main_arg3)
/-- The scale gamma : [256]. -/
abbrev arg4 : FVec Ideal S256 .f32 := m ((c : Thread nD τ).loc main_arg4)
/-- The shift beta : [256]. -/
abbrev arg5 : FVec Ideal S256 .f32 := m ((c : Thread nD τ).loc main_arg5)
/-- The shortcut weight Wsc : [128, 256]. -/
abbrev arg6 : FVec Ideal S128x256 .f32 := m ((c : Thread nD τ).loc main_arg6)
/-- The shortcut bias bsc : [256]. -/
abbrev arg7 : FVec Ideal S256 .f32 := m ((c : Thread nD τ).loc main_arg7)

/-! ### Before the third stretch: the arguments are as launched; the destinations and the gathered rows -/

theorem w2_arg0 : Gen.W2 m ρ c (Proc.devRef .tc main_arg0) = arg0 m c := (ops1_arg0 _).trans ((ops0_arg0 _).trans rfl)
theorem w2_arg2 : Gen.W2 m ρ c (Proc.devRef .tc main_arg2) = arg2 m c := (ops1_arg2 _).trans ((ops0_arg2 _).trans rfl)
theorem w2_arg3 : Gen.W2 m ρ c (Proc.devRef .tc main_arg3) = arg3 m c := (ops1_arg3 _).trans ((ops0_arg3 _).trans rfl)
theorem w2_arg4 : Gen.W2 m ρ c (Proc.devRef .tc main_arg4) = arg4 m c := (ops1_arg4 _).trans ((ops0_arg4 _).trans rfl)
theorem w2_arg5 : Gen.W2 m ρ c (Proc.devRef .tc main_arg5) = arg5 m c := (ops1_arg5 _).trans ((ops0_arg5 _).trans rfl)
theorem w2_arg6 : Gen.W2 m ρ c (Proc.devRef .tc main_arg6) = arg6 m c := (ops1_arg6 _).trans ((ops0_arg6 _).trans rfl)
theorem w2_arg7 : Gen.W2 m ρ c (Proc.devRef .tc main_arg7) = arg7 m c := (ops1_arg7 _).trans ((ops0_arg7 _).trans rfl)
theorem w2_v3 : Gen.W2 m ρ c (Proc.devRef .tc main_v3) = Agg.dst (arg1 m c) := (ops1_v3 _).trans ((ops0_v3 _).trans rfl)
theorem w2_v4 : Gen.W2 m ρ c (Proc.devRef .tc main_v4) = Agg.take (F := Ideal) (arg0 m c) (Agg.src (arg1 m c)) := by
  refine (ops1_v4 _).trans ?_
  show Agg.take (F := Ideal) (StableHlo.after Gen.hostOps0 (Gen.W0 m ρ c) (Proc.devRef .tc main_arg0))
    (StableHlo.after Gen.hostOps0 (Gen.W0 m ρ c) (Proc.devRef .tc main_v1)) = _
  rw [ops0_arg0, ops0_v1]

/-! ### At the first region's entry -/

theorem w3_v8 : Gen.W3 m ρ c (Proc.devRef .tc main_v8)
    = (truncf .bf16 (Agg.agg (F := Ideal) (arg0 m c) (arg1 m c)) bitsLt_bf16_f32 : FVec Ideal S50000x128 .bf16) := by
  refine (ops2_v8 _).trans ?_
  rw [w2_v3, w2_v4, ← agg_eq_scat]
theorem w3_v9 : Gen.W3 m ρ c (Proc.devRef .tc main_v9)
    = (truncf .bf16 (arg0 m c) bitsLt_bf16_f32 : FVec Ideal S50000x128 .bf16) := by
  refine (ops2_v9 _).trans ?_
  rw [w2_arg0]
theorem w3_v10 : Gen.W3 m ρ c (Proc.devRef .tc main_v10)
    = (truncf .bf16 (arg2 m c) bitsLt_bf16_f32 : FVec Ideal S128x256 .bf16) := by
  refine (ops2_v10 _).trans ?_
  rw [w2_arg2]
theorem w3_v11 : Gen.W3 m ρ c (Proc.devRef .tc main_v11)
    = (truncf .bf16 (arg6 m c) bitsLt_bf16_f32 : FVec Ideal S128x256 .bf16) := by
  refine (ops2_v11 _).trans ?_
  rw [w2_arg6]
theorem w3_v12 : Gen.W3 m ρ c (Proc.devRef .tc main_v12)
    = (shapeCast S1x256 (arg3 m c) shapeCasts_S256_S1x256 : FVec Ideal S1x256 .f32) := by
  refine (ops2_v12 _).trans ?_
  rw [w2_arg3]
theorem w3_v13 : Gen.W3 m ρ c (Proc.devRef .tc main_v13)
    = (shapeCast S1x256 (arg4 m c) shapeCasts_S256_S1x256 : FVec Ideal S1x256 .f32) := by
  refine (ops2_v13 _).trans ?_
  rw [w2_arg4]
theorem w3_v14 : Gen.W3 m ρ c (Proc.devRef .tc main_v14)
    = (shapeCast S1x256 (arg5 m c) shapeCasts_S256_S1x256 : FVec Ideal S1x256 .f32) := by
  refine (ops2_v14 _).trans ?_
  rw [w2_arg5]
theorem w3_v15 : Gen.W3 m ρ c (Proc.devRef .tc main_v15)
    = (shapeCast S1x256 (arg7 m c) shapeCasts_S256_S1x256 : FVec Ideal S1x256 .f32) := by
  refine (ops2_v15 _).trans ?_
  rw [w2_arg7]

/-- The aggregated features, rounded to the narrow format (the identity at the exact instance). -/
theorem v3_agg : Arr.agg (Gen.V3 m ρ) c = fun i k => Cert.KernelIdeal.Agg.agg (F := Ideal) (arg0 m c) (arg1 m c) (ix2 i k) := by
  funext i k
  exact (congrFun (w3_v8 m ρ c) (ix2 i k)).trans (truncf_apply _ _ _)
theorem v3_xb : Arr.xb (Gen.V3 m ρ) c = fun i k => arg0 m c (ix2 i k) := by
  funext i k
  exact (congrFun (w3_v9 m ρ c) (ix2 i k)).trans (truncf_apply _ _ _)
theorem v3_wg : Arr.wg (Gen.V3 m ρ) c = fun k j => arg2 m c (ix2 k j) := by
  funext k j
  exact (congrFun (w3_v10 m ρ c) (ix2 k j)).trans (truncf_apply _ _ _)
theorem v3_wsc : Arr.wsc (Gen.V3 m ρ) c = fun k j => arg6 m c (ix2 k j) := by
  funext k j
  exact (congrFun (w3_v11 m ρ c) (ix2 k j)).trans (truncf_apply _ _ _)
theorem v3_bg : Arr.bg (Gen.V3 m ρ) c = fun j => arg3 m c (ix1 j) := by
  funext j
  exact (congrFun (w3_v12 m ρ c) (ix2 (0 : Fin 1) j)).trans (reshape_row _ j)
theorem v3_gam : Arr.gam (Gen.V3 m ρ) c = fun j => arg4 m c (ix1 j) := by
  funext j
  exact (congrFun (w3_v13 m ρ c) (ix2 (0 : Fin 1) j)).trans (reshape_row _ j)
theorem v3_bet : Arr.bet (Gen.V3 m ρ) c = fun j => arg5 m c (ix1 j) := by
  funext j
  exact (congrFun (w3_v14 m ρ c) (ix2 (0 : Fin 1) j)).trans (reshape_row _ j)
theorem v3_bsc : Arr.bsc (Gen.V3 m ρ) c = fun j => arg7 m c (ix1 j) := by
  funext j
  exact (congrFun (w3_v15 m ρ c) (ix2 (0 : Fin 1) j)).trans (reshape_row _ j)

/-! ### Across the first region: an array it only reads is as entered (an input window is never written back), and so is
    every buffer that is none of its arrays -/

theorem w4_v8 : Gen.W4 m ρ c (Proc.devRef .tc main_v8) = Gen.V3 m ρ c main_v8 :=
  (Gen.W4_arr m ρ c 0).trans (((Gen.dat0 (Gen.V3 m ρ) c).arrAt_in 0 rfl _).trans (Gen.A_eq0 (Gen.V3 m ρ) c 0))
theorem w4_v10 : Gen.W4 m ρ c (Proc.devRef .tc main_v10) = Gen.V3 m ρ c main_v10 :=
  (Gen.W4_arr m ρ c 1).trans (((Gen.dat0 (Gen.V3 m ρ) c).arrAt_in 1 rfl _).trans (Gen.A_eq0 (Gen.V3 m ρ) c 1))
theorem w4_v12 : Gen.W4 m ρ c (Proc.devRef .tc main_v12) = Gen.V3 m ρ c main_v12 :=
  (Gen.W4_arr m ρ c 2).trans (((Gen.dat0 (Gen.V3 m ρ) c).arrAt_in 2 rfl _).trans (Gen.A_eq0 (Gen.V3 m ρ) c 2))
theorem w4_v9 : Gen.W4 m ρ c (Proc.devRef .tc main_v9) = Gen.V3 m ρ c main_v9 :=
  Gen.W4_of_ne m ρ c main_v9 (by decide)
theorem w4_v11 : Gen.W4 m ρ c (Proc.devRef .tc main_v11) = Gen.V3 m ρ c main_v11 :=
  Gen.W4_of_ne m ρ c main_v11 (by decide)
theorem w4_v13 : Gen.W4 m ρ c (Proc.devRef .tc main_v13) = Gen.V3 m ρ c main_v13 :=
  Gen.W4_of_ne m ρ c main_v13 (by decide)
theorem w4_v14 : Gen.W4 m ρ c (Proc.devRef .tc main_v14) = Gen.V3 m ρ c main_v14 :=
  Gen.W4_of_ne m ρ c main_v14 (by decide)
theorem w4_v15 : Gen.W4 m ρ c (Proc.devRef .tc main_v15) = Gen.V3 m ρ c main_v15 :=
  Gen.W4_of_ne m ρ c main_v15 (by decide)

/-! ### At the second region's entry: as at the first's -/

theorem w5_v8 : Gen.V5 m ρ c main_v8 = Gen.V3 m ρ c main_v8 :=
  (ops3_v8 _).trans (w4_v8 m ρ c)
theorem w5_v9 : Gen.V5 m ρ c main_v9 = Gen.V3 m ρ c main_v9 :=
  (ops3_v9 _).trans (w4_v9 m ρ c)
theorem w5_v10 : Gen.V5 m ρ c main_v10 = Gen.V3 m ρ c main_v10 :=
  (ops3_v10 _).trans (w4_v10 m ρ c)
theorem w5_v11 : Gen.V5 m ρ c main_v11 = Gen.V3 m ρ c main_v11 :=
  (ops3_v11 _).trans (w4_v11 m ρ c)
theorem w5_v12 : Gen.V5 m ρ c main_v12 = Gen.V3 m ρ c main_v12 :=
  (ops3_v12 _).trans (w4_v12 m ρ c)
theorem w5_v13 : Gen.V5 m ρ c main_v13 = Gen.V3 m ρ c main_v13 :=
  (ops3_v13 _).trans (w4_v13 m ρ c)
theorem w5_v14 : Gen.V5 m ρ c main_v14 = Gen.V3 m ρ c main_v14 :=
  (ops3_v14 _).trans (w4_v14 m ρ c)
theorem w5_v15 : Gen.V5 m ρ c main_v15 = Gen.V3 m ρ c main_v15 :=
  (ops3_v15 _).trans (w4_v15 m ρ c)

theorem v5_agg : Arr.agg (Gen.V5 m ρ) c = fun i k => Cert.KernelIdeal.Agg.agg (F := Ideal) (arg0 m c) (arg1 m c) (ix2 i k) := by
  refine Eq.trans ?_ (v3_agg m ρ c)
  unfold Arr.agg
  rw [w5_v8]
theorem v5_xb : Arr.xb (Gen.V5 m ρ) c = fun i k => arg0 m c (ix2 i k) := by
  refine Eq.trans ?_ (v3_xb m ρ c)
  unfold Arr.xb
  rw [w5_v9]
theorem v5_wg : Arr.wg (Gen.V5 m ρ) c = fun k j => arg2 m c (ix2 k j) := by
  refine Eq.trans ?_ (v3_wg m ρ c)
  unfold Arr.wg
  rw [w5_v10]
theorem v5_wsc : Arr.wsc (Gen.V5 m ρ) c = fun k j => arg6 m c (ix2 k j) := by
  refine Eq.trans ?_ (v3_wsc m ρ c)
  unfold Arr.wsc
  rw [w5_v11]
theorem v5_bg : Arr.bg (Gen.V5 m ρ) c = fun j => arg3 m c (ix1 j) := by
  refine Eq.trans ?_ (v3_bg m ρ c)
  unfold Arr.bg
  rw [w5_v12]
theorem v5_gam : Arr.gam (Gen.V5 m ρ) c = fun j => arg4 m c (ix1 j) := by
  refine Eq.trans ?_ (v3_gam m ρ c)
  unfold Arr.gam
  rw [w5_v13]
theorem v5_bet : Arr.bet (Gen.V5 m ρ) c = fun j => arg5 m c (ix1 j) := by
  refine Eq.trans ?_ (v3_bet m ρ c)
  unfold Arr.bet
  rw [w5_v14]
theorem v5_bsc : Arr.bsc (Gen.V5 m ρ) c = fun j => arg7 m c (ix1 j) := by
  refine Eq.trans ?_ (v3_bsc m ρ c)
  unfold Arr.bsc
  rw [w5_v15]

end Cert.KernelIdeal.HostIn

end
-- ==== Proof.KHostStats.lean ====
/-
  The host's arithmetic between the two regions: from the 25 per-block column sums of out_lin and of its square that
  the first region leaves, to the column mean and the column variance the second region reads.

  For each of the 256 columns j the host adds the 25 block entries of that column to a zero word (a sum over the two
  leading axes of a [25, 1, 256] array, whose indices over column j are exactly (t, 0, j), t < 25), divides by the word
  of 50000.0, and takes mean = (0 + Σ_t sum_t)/N and var = max((0 + Σ_t sumsq_t)/N − mean·mean, 0); each is then stored
  as a [1, 256] row, whose entry (0, j) is the vector's entry j. Nothing is evaluated: the words of zero and of N stay
  words, and every operation is the extended reals' own.
-/
import proofs.«418842_j13795434955523_2_alg».proof.Proof.KArr
import proofs.«418842_j13795434955523_2_alg».proof.Proof.Spec
import Idealize.ShloMosaic.Lib.StableHlo.Run
import Idealize.ShloMosaic.PureOps.Ideal.Laws
import Idealize.ShloMosaic.Lib.ValueIdx
import Idealize.ShloMosaic.Lib.IdealHost
import Idealize.ShloMosaic.Lib.Pipeline.Value

set_option maxRecDepth 16384

noncomputable section

namespace Cert.KernelIdeal.HostStats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open scoped BigOperators

/-! ## The sum over the two leading axes of a [25, 1, 256] array -/

/-- With axes 0 and 1 of [25, 1, 256] removed, the indices that drop to j are exactly (t, 0, j): the middle axis has
    one coordinate, and the last coordinate is the one kept. -/
theorem drop_eq_iff (h : S25x1x256.ReducesTo [0, 1] S256) (i : S25x1x256.Idx) (j : Fin 256) :
    h.drop i = ix1 j ↔ i = ix3 (i 0 : Fin 25) (0 : Fin 1) j := by
  constructor
  · intro e
    have h2 : ((i 2 : Fin 256) : Nat) = j.val := by
      have := Shape.ReducesTo.drop_apply_val_of_eq h i 0 2
      rw [e] at this; exact this.symm
    have h1 : ((i 1 : Fin 1) : Nat) = 0 := by
      have : ((i 1 : Fin 1) : Nat) < 1 := (i 1 : Fin 1).isLt
      omega
    funext a
    match a with
    | ⟨0, _⟩ => rfl
    | ⟨1, _⟩ => exact Fin.ext h1
    | ⟨2, _⟩ => exact Fin.ext h2
  · intro e
    rw [e]
    funext b
    match b with
    | ⟨0, _⟩ => exact Fin.ext (Shape.ReducesTo.drop_apply_val_of_eq h _ 0 2)

/-- The host's sum over axes 0 and 1 of a [25, 1, 256] array, read at column j: the initial value plus the 25 block
    entries of that column. The set of indices over j is carried onto Fin 25 by i ↦ i 0, with inverse t ↦ (t, 0, j). -/
theorem hostReduceAdd_blocks (h : S25x1x256.ReducesTo [0, 1] S256) (x : S25x1x256.Idx → EReal) (init : EReal)
    (j : Fin 256) :
    Ideal.hostReduceAdd h x init (ix1 j) = init + ∑ t : Fin 25, x (ix3 t (0 : Fin 1) j) := by
  show init + ∑ i ∈ Finset.univ.filter (fun i => h.drop i = ix1 j), x i = _
  congr 1
  refine Finset.sum_nbij' (fun i => (i 0 : Fin 25)) (fun t => ix3 t (0 : Fin 1) j) ?_ ?_ ?_ ?_ ?_
  · intro i _; exact Finset.mem_univ _
  · intro t _; exact Finset.mem_filter.mpr ⟨Finset.mem_univ _, (drop_eq_iff h _ j).mpr rfl⟩
  · intro i hi; exact ((drop_eq_iff h i j).mp (Finset.mem_filter.mp hi).2).symm
  · intro t _; rfl
  · intro i hi; exact congrArg x ((drop_eq_iff h i j).mp (Finset.mem_filter.mp hi).2)

/-! ## The two statistics read at (0, j), over any two block arrays -/

/-- A [256] vector stored as a [1, 256] row, read at (0, j), is the vector at j: both have row-major position j. -/
theorem reshape_row (hc : S256.ShapeCasts S1x256) (v : S256.Idx → EReal) (j : Fin 256) :
    shapeCast S1x256 v hc (ix2 (0 : Fin 1) j) = v (ix1 j) := by
  refine shapeCast_apply v hc (ix2 (0 : Fin 1) j) (ix1 j) ?_
  rw [Shape.rowMajor_val_one, Shape.rowMajor_val_two]
  show j.val = 0 * 256 + j.val
  omega

/-- The column mean as the host computes it from the block sums x0, read at (0, j): (0 + Σ_t x0(t, 0, j)) / N. -/
theorem mean_read (hr : S25x1x256.ReducesTo [0, 1] S256) (hu : 0 < S_.numel) (hb : S_.BroadcastsInDim S256 ![])
    (hc : S256.ShapeCasts S1x256) (x0 : FVec Ideal S25x1x256 .f32) (j : Fin 256) :
    shapeCast S1x256
        (Host.divf (Host.reduceAdd x0 (constant (F := Ideal) S_ .f32 0x00000000#32) hr hu)
          (broadcastInDim S256 ![] hb (constant (F := Ideal) S_ .f32 0x47435000#32))) hc (ix2 (0 : Fin 1) j)
      = Ideal.div (Ideal.ofBits .f32 0x00000000#32 + ∑ t : Fin 25, x0 (ix3 t (0 : Fin 1) j))
          (Ideal.ofBits .f32 0x47435000#32) := by
  rw [reshape_row, hostDivf_apply, hostReduceAdd_apply, hostReduceAdd_blocks]
  rfl

/-- The column variance as the host computes it from the block sums x0 and the block sums of squares x1, read at
    (0, j): max((0 + Σ_t x1(t, 0, j)) / N − mean · mean, 0), mean the quotient of `mean_read`. -/
theorem var_read (hr : S25x1x256.ReducesTo [0, 1] S256) (hu : 0 < S_.numel) (hb : S_.BroadcastsInDim S256 ![])
    (hc : S256.ShapeCasts S1x256) (x0 x1 : FVec Ideal S25x1x256 .f32) (j : Fin 256) :
    shapeCast S1x256
        (maximumf
          (subf
            (Host.divf (Host.reduceAdd x1 (constant (F := Ideal) S_ .f32 0x00000000#32) hr hu)
              (broadcastInDim S256 ![] hb (constant (F := Ideal) S_ .f32 0x47435000#32)))
            (mulf
              (Host.divf (Host.reduceAdd x0 (constant (F := Ideal) S_ .f32 0x00000000#32) hr hu)
                (broadcastInDim S256 ![] hb (constant (F := Ideal) S_ .f32 0x47435000#32)))
              (Host.divf (Host.reduceAdd x0 (constant (F := Ideal) S_ .f32 0x00000000#32) hr hu)
                (broadcastInDim S256 ![] hb (constant (F := Ideal) S_ .f32 0x47435000#32)))))
          (broadcastInDim S256 ![] hb (constant (F := Ideal) S_ .f32 0x00000000#32))) hc (ix2 (0 : Fin 1) j)
      = max
          (Ideal.div (Ideal.ofBits .f32 0x00000000#32 + ∑ t : Fin 25, x1 (ix3 t (0 : Fin 1) j))
              (Ideal.ofBits .f32 0x47435000#32)
            - Ideal.div (Ideal.ofBits .f32 0x00000000#32 + ∑ t : Fin 25, x0 (ix3 t (0 : Fin 1) j))
                (Ideal.ofBits .f32 0x47435000#32)
              * Ideal.div (Ideal.ofBits .f32 0x00000000#32 + ∑ t : Fin 25, x0 (ix3 t (0 : Fin 1) j))
                (Ideal.ofBits .f32 0x47435000#32))
          (Ideal.ofBits .f32 0x00000000#32) := by
  rw [reshape_row, maximumf_apply, subf_apply, mulf_apply, hostDivf_apply, hostDivf_apply, hostReduceAdd_apply,
    hostReduceAdd_apply, hostReduceAdd_blocks, hostReduceAdd_blocks]
  rfl

/-! ## The two buffers at the second region's entry -/

variable (m : (ℓ : Loc nD τ sig) → Buf (Elt Ideal) ℓ) (ρ : Dev nD → PrngReg) (c : Dev nD)

/-- The mean buffer at the second region's entry is the host operations' term over the first region's array of block
    sums as that region leaves it. -/
theorem v27_eq :
    (Gen.V5 m ρ c main_v27 : S1x256.Idx → EReal)
      = shapeCast S1x256
          (Host.divf
            (Host.reduceAdd (Gen.V4 m ρ c main_v16_0 : S25x1x256.Idx → EReal)
              (constant (F := Ideal) S_ .f32 0x00000000#32) reducesTo_S25x1x256_S256_d0_1 h_S_)
            (broadcastInDim S256 ![] bcast_S_S256 (constant (F := Ideal) S_ .f32 0x47435000#32)))
          shapeCasts_S256_S1x256 := by
  show StableHlo.after hostOps1 (Gen.W4 m ρ c) (Proc.devRef .tc main_v27) = _
  after_results
  rfl

/-- The variance buffer at the second region's entry likewise, over the two arrays of block sums. -/
theorem v28_eq :
    (Gen.V5 m ρ c main_v28 : S1x256.Idx → EReal)
      = shapeCast S1x256
          (maximumf
            (subf
              (Host.divf
                (Host.reduceAdd (Gen.V4 m ρ c main_v16_1 : S25x1x256.Idx → EReal)
                  (constant (F := Ideal) S_ .f32 0x00000000#32) reducesTo_S25x1x256_S256_d0_1 h_S_)
                (broadcastInDim S256 ![] bcast_S_S256 (constant (F := Ideal) S_ .f32 0x47435000#32)))
              (mulf
                (Host.divf
                  (Host.reduceAdd (Gen.V4 m ρ c main_v16_0 : S25x1x256.Idx → EReal)
                    (constant (F := Ideal) S_ .f32 0x00000000#32) reducesTo_S25x1x256_S256_d0_1 h_S_)
                  (broadcastInDim S256 ![] bcast_S_S256 (constant (F := Ideal) S_ .f32 0x47435000#32)))
                (Host.divf
                  (Host.reduceAdd (Gen.V4 m ρ c main_v16_0 : S25x1x256.Idx → EReal)
                    (constant (F := Ideal) S_ .f32 0x00000000#32) reducesTo_S25x1x256_S256_d0_1 h_S_)
                  (broadcastInDim S256 ![] bcast_S_S256 (constant (F := Ideal) S_ .f32 0x47435000#32)))))
            (broadcastInDim S256 ![] bcast_S_S256 (constant (F := Ideal) S_ .f32 0x00000000#32)))
          shapeCasts_S256_S1x256 := by
  show StableHlo.after hostOps1 (Gen.W4 m ρ c) (Proc.devRef .tc main_v28) = _
  after_results
  rfl

/-- The column mean the second region reads: (0 + Σ_t sum_t j) / N over the first region's block sums. -/
theorem v5_mean (j : Fin 256) :
    Arr.mean (Gen.V5 m ρ) c j
      = Ideal.div (Cert.Spec.zeroF + ∑ t : Fin 25, Arr.sum3 (Gen.V4 m ρ) c t j) Cert.Spec.nF := by
  have e := congrFun (v27_eq m ρ c) (ix2 (0 : Fin 1) j)
  rw [mean_read] at e
  exact e

/-- The column variance the second region reads: max((0 + Σ_t sumsq_t j) / N − mean · mean, 0). -/
theorem v5_var (j : Fin 256) :
    Arr.var (Gen.V5 m ρ) c j
      = max (Ideal.div (Cert.Spec.zeroF + ∑ t : Fin 25, Arr.sumsq3 (Gen.V4 m ρ) c t j) Cert.Spec.nF
          - Arr.mean (Gen.V5 m ρ) c j * Arr.mean (Gen.V5 m ρ) c j) Cert.Spec.zeroF := by
  have e := congrFun (v28_eq m ρ c) (ix2 (0 : Fin 1) j)
  rw [var_read] at e
  rw [v5_mean m ρ c j]
  exact e

end Cert.KernelIdeal.HostStats
-- ==== Proof.KValue.lean ====
/-
  The idealized kernel program's result array, index by index, as a function of the launch memory.

  The second region leaves, at row i and column j of its output, shortcut(i, j) + ELU(bn(i, j)) with the column mean
  and variance it is handed; those are what the host operations between the regions make of the first region's two
  output arrays — the 25 per-block column sums of out_lin and of its square —, namely mean = (Σ_t blockSum_t)/N and
  var = max((Σ_t blockSumSq_t)/N − mean², 0); and the arrays both regions read are the aggregated features, the node
  features, the weights and the row vectors of the launch memory. Together: the blockwise specification `Spec.Kout`.
-/
import proofs.«418842_j13795434955523_2_alg».proof.Proof.KArr
import proofs.«418842_j13795434955523_2_alg».proof.Proof.Spec
import proofs.«418842_j13795434955523_2_alg».proof.Proof.AggDefs
import proofs.«418842_j13795434955523_2_alg».proof.Proof.KReg0
import proofs.«418842_j13795434955523_2_alg».proof.Proof.KReg1
import proofs.«418842_j13795434955523_2_alg».proof.Proof.KHostIn
import proofs.«418842_j13795434955523_2_alg».proof.Proof.KHostStats

set_option maxRecDepth 16384

noncomputable section

namespace Cert.KernelIdeal.Whole

open Idealize.ShloMosaic Idealize.ShloMosaic.TcCoe Idealize.SL.Sem Idealize.ShloMosaic.ValueIdx
open Cert.KernelIdeal Cert.KernelIdeal.Gen Cert.KernelIdeal.HostIn

variable (m : (ℓ : Loc nD τ sig) → Buf (Elt Ideal) ℓ) (ρ : Dev nD → PrngReg) (c : Dev nD)

/-- The mean the second region reads is the blockwise mean of out_lin's columns: each block sum the first region
    wrote is the sum of out_lin over that block's 2000 rows. -/
theorem mean_eq : Arr.mean (Gen.V5 m ρ) c
    = Cert.Spec.kMean (fun i k => Agg.agg (F := Ideal) (arg0 m c) (arg1 m c) (ix2 i k)) (fun k j => arg2 m c (ix2 k j)) (fun j => arg3 m c (ix1 j)) := by
  funext j
  have hs : (∑ t : Fin 25, Arr.sum3 (Gen.V4 m ρ) c t j)
      = ∑ t : Fin 25, Cert.Spec.blkSum (fun i k => Agg.agg (F := Ideal) (arg0 m c) (arg1 m c) (ix2 i k)) (fun k j => arg2 m c (ix2 k j)) (fun j => arg3 m c (ix1 j)) t j := by
    refine Finset.sum_congr rfl fun t _ => ?_
    have h := Reg0.sum_at (Gen.V3 m ρ) c t j
    rw [v3_agg, v3_wg, v3_bg] at h
    rw [← h]
    show (Gen.W4 m ρ c (Proc.devRef .tc main_v16_0) : S25x1x256.Idx → EReal) (ix3 t (0 : Fin 1) j) = _
    rw [show Gen.W4 m ρ c (Proc.devRef .tc main_v16_0) = (Gen.dat0 (Gen.V3 m ρ) c).arrAt 3 cfg0.N from Gen.W4_arr m ρ c 3]
  rw [HostStats.v5_mean, hs]
  rfl

/-- The variance the second region reads is the blockwise one: E[o²] − mean², clamped at 0. -/
theorem var_eq : Arr.var (Gen.V5 m ρ) c
    = Cert.Spec.kVar (fun i k => Agg.agg (F := Ideal) (arg0 m c) (arg1 m c) (ix2 i k)) (fun k j => arg2 m c (ix2 k j)) (fun j => arg3 m c (ix1 j)) := by
  funext j
  have hs : (∑ t : Fin 25, Arr.sumsq3 (Gen.V4 m ρ) c t j)
      = ∑ t : Fin 25, Cert.Spec.blkSumSq (fun i k => Agg.agg (F := Ideal) (arg0 m c) (arg1 m c) (ix2 i k)) (fun k j => arg2 m c (ix2 k j)) (fun j => arg3 m c (ix1 j)) t j := by
    refine Finset.sum_congr rfl fun t _ => ?_
    have h := Reg0.sumsq_at (Gen.V3 m ρ) c t j
    rw [v3_agg, v3_wg, v3_bg] at h
    rw [← h]
    show (Gen.W4 m ρ c (Proc.devRef .tc main_v16_1) : S25x1x256.Idx → EReal) (ix3 t (0 : Fin 1) j) = _
    rw [show Gen.W4 m ρ c (Proc.devRef .tc main_v16_1) = (Gen.dat0 (Gen.V3 m ρ) c).arrAt 4 cfg0.N from Gen.W4_arr m ρ c 4]
  rw [HostStats.v5_var, hs, mean_eq]
  rfl

/-- The result buffer after the run, at (i, j): the blockwise specification of the launch memory's arrays. -/
theorem result_at (i : Fin 50000) (j : Fin 256) :
    (Gen.W6 m ρ c (Proc.devRef .tc main_v29) : S50000x256.Idx → EReal) (ix2 i j)
      = Cert.Spec.Kout (fun i k => Agg.agg (F := Ideal) (arg0 m c) (arg1 m c) (ix2 i k)) (fun i k => arg0 m c (ix2 i k)) (fun k j => arg2 m c (ix2 k j)) (fun k j => arg6 m c (ix2 k j))
          (fun j => arg3 m c (ix1 j)) (fun j => arg4 m c (ix1 j)) (fun j => arg5 m c (ix1 j)) (fun j => arg7 m c (ix1 j)) i j := by
  rw [show Gen.W6 m ρ c (Proc.devRef .tc main_v29) = (Gen.dat1 (Gen.V5 m ρ) c).arrAt 10 cfg1.N from Gen.W6_arr m ρ c 10]
  rw [Reg1.final_at (Gen.V5 m ρ) c i j, v5_agg, v5_xb, v5_wg, v5_wsc, v5_bg, v5_gam, v5_bet, v5_bsc, mean_eq, var_eq]
  rfl

end Cert.KernelIdeal.Whole

end
-- ==== Proof.RTerm.lean ====
/-
  The reference program's result as one pure term.

  Each `let` below is one StableHLO operation of the reference's @main, in program order, with the
  operations of the outlined functions (@_var, @_where, @elu, @_where_0, @_where_1) written at their
  call sites over the call's own values.  A `let` is named after the value it defines and applies the
  same pure function, with the same shape facts and literals, as the program's line for that value.

  The chain of eighty-five `let`s is cut into four stretches (`result`, `result_part1`,
  `result_part2`, `result_part3`): each takes the names live at its head and ends in the call of
  the next, so unfolding the four definitions gives back the one chain.
-/
import proofs.«418842_j13795434955523_2_alg».proof.ReferenceIdeal

noncomputable section

namespace Cert.ReferenceIdeal.RTerm

open Idealize.ShloMosaic Cert.ReferenceIdeal

variable [Cert.ReferenceIdeal.Facts]
open Cert.ReferenceIdeal.Facts Cert.ReferenceIdeal.Facts₀

/-- Operations 66–85: ELU of the normalised activations `%36` (the entry where it is positive,
    `exp(·) − 1` of it otherwise, the exponential taken of zero at the positive entries), the second
    linear map of the input with its bias, and the sum of the two. -/
noncomputable def result_part3 {F : FTy → Type} [FloatOps F]
    (a0 : FVec F S50000x128 .f32) (a6 : FVec F S128x256 .f32) (a7 : FVec F S256 .f32)
    (main_v36 : FVec F S50000x256 .f32) : FVec F S50000x256 .f32 :=
  let main_call1_cst : FVec F S_ .f32 := constant S_ .f32 0x00000000#32
  let main_call1_v0 : FVec F S50000x256 .f32 := broadcastInDim S50000x256 ![] bcast_S_S50000x256 main_call1_cst
  let main_call1_v1 : IVec S50000x256 1 := cmpf .ogt main_v36 main_call1_v0
  let main_call1_cst_0 : FVec F S_ .f32 := constant S_ .f32 0x00000000#32
  let main_call1_v2 : FVec F S50000x256 .f32 := broadcastInDim S50000x256 ![] bcast_S_S50000x256 main_call1_cst_0
  let main_call1_v3 : IVec S50000x256 1 := cmpf .ogt main_v36 main_call1_v2
  let main_call1_cst_1 : FVec F S_ .f32 := constant S_ .f32 0x00000000#32
  let main_call1_call0_v0 : FVec F S_ .f32 := id main_call1_cst_1
  let main_call1_call0_v1 : FVec F S50000x256 .f32 := broadcastInDim S50000x256 ![] bcast_S_S50000x256 main_call1_call0_v0
  let main_call1_v4 : FVec F S50000x256 .f32 := select main_call1_v3 main_call1_call0_v1 main_v36
  let main_call1_v5 : FVec F S50000x256 .f32 := Host.expm1 main_call1_v4
  let main_call1_cst_2 : FVec F S_ .f32 := constant S_ .f32 0x3F800000#32
  let main_call1_v6 : FVec F S50000x256 .f32 := broadcastInDim S50000x256 ![] bcast_S_S50000x256 main_call1_cst_2
  let main_call1_v7 : FVec F S50000x256 .f32 := mulf main_call1_v6 main_call1_v5
  let main_v37 : FVec F S50000x256 .f32 := select main_call1_v1 main_v36 main_call1_v7
  let main_v38 : FVec F S50000x256 .f32 := (fun l r => Host.dotGeneral dot_S50000x128_S128x256_S50000x256_1_0_0_1_n_n none l r) a0 a6
  let main_v39 : FVec F S1x256 .f32 := broadcastInDim S1x256 ![1] bcast_S256_S1x256_1 a7
  let main_v40 : FVec F S50000x256 .f32 := broadcastInDim S50000x256 ![0, 1] bcast_S1x256_S50000x256_0_1 main_v39
  let main_v41 : FVec F S50000x256 .f32 := addf main_v38 main_v40
  let main_v42 : FVec F S50000x256 .f32 := addf main_v41 main_v37
  main_v42

/-- Operations 50–65: subtract the column means `%20`, multiply by the reciprocal square root of the
    column variances `%21` plus `1e-5`, scale by `a4` and shift by `a5`. -/
noncomputable def result_part2 {F : FTy → Type} [FloatOps F]
    (a0 : FVec F S50000x128 .f32) (a4 a5 : FVec F S256 .f32) (a6 : FVec F S128x256 .f32) (a7 : FVec F S256 .f32)
    (main_v17 : FVec F S50000x256 .f32) (main_v20 main_v21 : FVec F S256 .f32) : FVec F S50000x256 .f32 :=
  let main_v22 : FVec F S1x256 .f32 := broadcastInDim S1x256 ![1] bcast_S256_S1x256_1 main_v20
  let main_v23 : FVec F S50000x256 .f32 := broadcastInDim S50000x256 ![0, 1] bcast_S1x256_S50000x256_0_1 main_v22
  let main_v24 : FVec F S50000x256 .f32 := subf main_v17 main_v23
  let main_cst_4 : FVec F S_ .f32 := constant S_ .f32 0x3727C5AC#32
  let main_v25 : FVec F S256 .f32 := broadcastInDim S256 ![] bcast_S_S256 main_cst_4
  let main_v26 : FVec F S256 .f32 := addf main_v21 main_v25
  let main_v27 : FVec F S256 .f32 := Host.rsqrt main_v26
  let main_v28 : FVec F S1x256 .f32 := broadcastInDim S1x256 ![1] bcast_S256_S1x256_1 main_v27
  let main_v29 : FVec F S50000x256 .f32 := broadcastInDim S50000x256 ![0, 1] bcast_S1x256_S50000x256_0_1 main_v28
  let main_v30 : FVec F S50000x256 .f32 := mulf main_v24 main_v29
  let main_v31 : FVec F S1x256 .f32 := broadcastInDim S1x256 ![1] bcast_S256_S1x256_1 a4
  let main_v32 : FVec F S50000x256 .f32 := broadcastInDim S50000x256 ![0, 1] bcast_S1x256_S50000x256_0_1 main_v31
  let main_v33 : FVec F S50000x256 .f32 := mulf main_v30 main_v32
  let main_v34 : FVec F S1x256 .f32 := broadcastInDim S1x256 ![1] bcast_S256_S1x256_1 a5
  let main_v35 : FVec F S50000x256 .f32 := broadcastInDim S50000x256 ![0, 1] bcast_S1x256_S50000x256_0_1 main_v34
  let main_v36 : FVec F S50000x256 .f32 := addf main_v33 main_v35
  result_part3 (F := F) a0 a6 a7 main_v36

/-- Operations 22–49: the column means `%20` of `%17` over the 50000 rows, and its column variances
    `%21` (@_var with no degrees of freedom removed: the mean of the squared deviations, kept where the
    divisor is positive — @_where — and the quiet NaN otherwise). -/
noncomputable def result_part1 {F : FTy → Type} [FloatOps F]
    (a0 : FVec F S50000x128 .f32) (a4 a5 : FVec F S256 .f32) (a6 : FVec F S128x256 .f32) (a7 : FVec F S256 .f32)
    (main_v17 : FVec F S50000x256 .f32) : FVec F S50000x256 .f32 :=
  let main_cst_1 : FVec F S_ .f32 := constant S_ .f32 0x00000000#32
  let main_v18 : FVec F S256 .f32 := (fun x v => Host.reduceAdd x v reducesTo_S50000x256_S256_d0 h_S_) main_v17 main_cst_1
  let main_cst_2 : FVec F S_ .f32 := constant S_ .f32 0x47435000#32
  let main_v19 : FVec F S256 .f32 := broadcastInDim S256 ![] bcast_S_S256 main_cst_2
  let main_v20 : FVec F S256 .f32 := Host.divf main_v18 main_v19
  let main_c_3 : IVec S_ 32 := constantI S_ 32 0#32
  let main_call0_cst : FVec F S_ .f32 := constant S_ .f32 0x00000000#32
  let main_call0_v0 : FVec F S256 .f32 := (fun x v => Host.reduceAdd x v reducesTo_S50000x256_S256_d0 h_S_) main_v17 main_call0_cst
  let main_call0_v1 : FVec F S1x256 .f32 := broadcastInDim S1x256 ![1] bcast_S256_S1x256_1 main_call0_v0
  let main_call0_cst_0 : FVec F S_ .f32 := constant S_ .f32 0x47435000#32
  let main_call0_v2 : FVec F S1x256 .f32 := broadcastInDim S1x256 ![] bcast_S_S1x256 main_call0_cst_0
  let main_call0_v3 : FVec F S1x256 .f32 := Host.divf main_call0_v1 main_call0_v2
  let main_call0_v4 : FVec F S50000x256 .f32 := broadcastInDim S50000x256 ![0, 1] bcast_S1x256_S50000x256_0_1 main_call0_v3
  let main_call0_v5 : FVec F S50000x256 .f32 := subf main_v17 main_call0_v4
  let main_call0_v6 : FVec F S50000x256 .f32 := mulf main_call0_v5 main_call0_v5
  let main_call0_v7 : FVec F S_ .f32 := sitofp .f32 main_c_3
  let main_call0_cst_1 : FVec F S_ .f32 := constant S_ .f32 0x47435000#32
  let main_call0_v8 : FVec F S_ .f32 := subf main_call0_cst_1 main_call0_v7
  let main_call0_cst_2 : FVec F S_ .f32 := constant S_ .f32 0x00000000#32
  let main_call0_v9 : FVec F S256 .f32 := (fun x v => Host.reduceAdd x v reducesTo_S50000x256_S256_d0 h_S_) main_call0_v6 main_call0_cst_2
  let main_call0_v10 : FVec F S256 .f32 := broadcastInDim S256 ![] bcast_S_S256 main_call0_v8
  let main_call0_v11 : FVec F S256 .f32 := Host.divf main_call0_v9 main_call0_v10
  let main_call0_cst_3 : FVec F S_ .f32 := constant S_ .f32 0x00000000#32
  let main_call0_v12 : IVec S_ 1 := cmpf .ogt main_call0_v8 main_call0_cst_3
  let main_call0_cst_4 : FVec F S_ .f32 := constant S_ .f32 0x7FC00000#32
  let main_call0_call0_v0 : FVec F S_ .f32 := id main_call0_cst_4
  let main_call0_call0_v1 : FVec F S256 .f32 := broadcastInDim S256 ![] bcast_S_S256 main_call0_call0_v0
  let main_v21 : FVec F S256 .f32 := (fun p a b => select (broadcastInDim S256 ![] bcast_S_S256 p) a b) main_call0_v12 main_call0_v11 main_call0_call0_v1
  result_part2 (F := F) a0 a4 a5 a6 a7 main_v17 main_v20 main_v21

/-- The value of @main's result `%42` as a function of the eight arguments.  Operations 1–21: the
    source and destination rows of the edge list (negative source indices wrapped by the row count),
    the source rows gathered and added into their destination rows of a zero array, then the first
    linear map and bias, giving `%17`; the rest is `result_part1`. -/
noncomputable def result {F : FTy → Type} [FloatOps F]
    (a0 : FVec F S50000x128 .f32) (a1 : IVec S2x600000 32) (a2 : FVec F S128x256 .f32)
    (a3 a4 a5 : FVec F S256 .f32) (a6 : FVec F S128x256 .f32) (a7 : FVec F S256 .f32) :
    FVec F S50000x256 .f32 :=
  let main_v0 : IVec S1x600000 32 := (extractStridedSlice S1x600000 ![0, 0] · slices_S2x600000_S1x600000_0_0) a1
  let main_v1 : IVec S600000 32 := shapeCast S600000 main_v0 shapeCasts_S1x600000_S600000
  let main_v2 : IVec S1x600000 32 := (extractStridedSlice S1x600000 ![1, 0] · slices_S2x600000_S1x600000_1_0) a1
  let main_v3 : IVec S600000 32 := shapeCast S600000 main_v2 shapeCasts_S1x600000_S600000
  let main_c : IVec S_ 32 := constantI S_ 32 0#32
  let main_v4 : IVec S600000 32 := broadcastInDim S600000 ![] bcast_S_S600000 main_c
  let main_v5 : IVec S600000 1 := cmpi .slt main_v1 main_v4
  let main_c_0 : IVec S_ 32 := constantI S_ 32 50000#32
  let main_v6 : IVec S600000 32 := broadcastInDim S600000 ![] bcast_S_S600000 main_c_0
  let main_v7 : IVec S600000 32 := addi main_v1 main_v6
  let main_v8 : IVec S600000 32 := select main_v5 main_v7 main_v1
  let main_v9 : IVec S600000x1 32 := broadcastInDim S600000x1 ![0] bcast_S600000_S600000x1_0 main_v8
  let main_v10 : FVec F S600000x128 .f32 := (fun x i => Host.gather gather_S50000x128_S600000x1_S600000x128_1_0_n_n_0_1_1128 x i) a0 main_v9
  let main_cst : FVec F S_ .f32 := constant S_ .f32 0x00000000#32
  let main_v11 : FVec F S50000x128 .f32 := broadcastInDim S50000x128 ![] bcast_S_S50000x128 main_cst
  let main_v12 : IVec S600000x1 32 := broadcastInDim S600000x1 ![0] bcast_S600000_S600000x1_0 main_v3
  let main_v13 : FVec F S50000x128 .f32 := (fun x i u => Host.scatterAdd scatter_S50000x128_S600000x1_S600000x128_1_0_0_1 x i u) main_v11 main_v12 main_v10
  let main_v14 : FVec F S50000x256 .f32 := (fun l r => Host.dotGeneral dot_S50000x128_S128x256_S50000x256_1_0_0_1_n_n none l r) main_v13 a2
  let main_v15 : FVec F S1x256 .f32 := broadcastInDim S1x256 ![1] bcast_S256_S1x256_1 a3
  let main_v16 : FVec F S50000x256 .f32 := broadcastInDim S50000x256 ![0, 1] bcast_S1x256_S50000x256_0_1 main_v15
  let main_v17 : FVec F S50000x256 .f32 := addf main_v14 main_v16
  result_part1 (F := F) a0 a4 a5 a6 a7 main_v17

end Cert.ReferenceIdeal.RTerm

end
-- ==== Proof.RRun.lean ====
/-
  The reference program's run, read back.

  The reference is a host program: its @main is a straight line of eighty-five StableHLO operations once
  the outlined functions it calls (@_var, which calls @_where; @elu, which calls @_where_0 and @_where_1)
  are unfolded at their call sites, each callee operation over the buffers of that call's record.  Every
  weakly fair execution of such a line terminates with each buffer at the fold of the operations' results
  over the launch contents; at the result buffer that fold is the pure term `RTerm.result` of the eight
  arguments' launch contents, and no operation writes an argument buffer.
-/
import proofs.«418842_j13795434955523_2_alg».proof.Proof.Gen.ReferenceIdeal
import proofs.«418842_j13795434955523_2_alg».proof.Proof.RTerm
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo
open Cert.ReferenceIdeal.Facts Cert.ReferenceIdeal.Facts₀

variable {F : FTy → Type} [FloatOps F]

/-- @main's operations in order, the callees' written where they are called: @main's first twenty-seven,
    @_var's nineteen over `main_call0` and @_where's three over `main_call0.call0`, @main's next sixteen,
    @elu's seven over `main_call1`, @_where_0's three over `main_call1.call0`, @elu's next four, @_where_1's
    one over `main_call1.call1`, and @main's last five. -/
abbrev ops : List (HloOp τ sig (Elt F)) :=
  [
    unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v13 main_arg2 main_v14 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v15 (broadcastInDim S1x256 ![1] bcast_S256_S1x256_1 : (⟨S256, .f32⟩ : BufTy).Contents (Elt F) → (⟨S1x256, .f32⟩ : BufTy).Contents (Elt F)),
    unary main_v15 main_v16 (broadcastInDim S50000x256 ![0, 1] bcast_S1x256_S50000x256_0_1 : (⟨S1x256, .f32⟩ : BufTy).Contents (Elt F) → (⟨S50000x256, .f32⟩ : BufTy).Contents (Elt F)),
    binary main_v14 main_v16 main_v17 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    binary main_v17 main_cst_1 main_v18 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_2 (constant S_ .f32 0x47435000#32),
    unary main_cst_2 main_v19 (broadcastInDim S256 ![] bcast_S_S256 : (⟨S_, .f32⟩ : BufTy).Contents (Elt F) → (⟨S256, .f32⟩ : BufTy).Contents (Elt F)),
    binary main_v18 main_v19 main_v20 (Host.divf : (⟨S256, .f32⟩ : BufTy).Contents (Elt F) → (⟨S256, .f32⟩ : BufTy).Contents (Elt F) → (⟨S256, .f32⟩ : BufTy).Contents (Elt F)),
    nullary main_c_3 (constantI S_ 32 0#32),
    TRef.nullary main_call0.cst (constant S_ .f32 0x00000000#32),
    TRef.binary (.of main_v17) main_call0.cst main_call0.v0 (fun x v => Host.reduceAdd x v reducesTo_S50000x256_S256_d0 h_S_),
    TRef.unary main_call0.v0 main_call0.v1 (broadcastInDim S1x256 ![1] bcast_S256_S1x256_1),
    TRef.nullary main_call0.cst_0 (constant S_ .f32 0x47435000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S50000x256 ![0, 1] bcast_S1x256_S50000x256_0_1),
    TRef.binary (.of main_v17) main_call0.v4 main_call0.v5 subf,
    TRef.binary main_call0.v5 main_call0.v5 main_call0.v6 mulf,
    TRef.unary (.of main_c_3) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b),
    unary main_v20 main_v22 (broadcastInDim S1x256 ![1] bcast_S256_S1x256_1 : (⟨S256, .f32⟩ : BufTy).Contents (Elt F) → (⟨S1x256, .f32⟩ : BufTy).Contents (Elt F)),
    unary main_v22 main_v23 (broadcastInDim S50000x256 ![0, 1] bcast_S1x256_S50000x256_0_1 : (⟨S1x256, .f32⟩ : BufTy).Contents (Elt F) → (⟨S50000x256, .f32⟩ : BufTy).Contents (Elt F)),
    binary main_v17 main_v23 main_v24 (subf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v25 (broadcastInDim S256 ![] bcast_S_S256 : (⟨S_, .f32⟩ : BufTy).Contents (Elt F) → (⟨S256, .f32⟩ : BufTy).Contents (Elt F)),
    binary main_v21 main_v25 main_v26 (addf : (⟨S256, .f32⟩ : BufTy).Contents (Elt F) → (⟨S256, .f32⟩ : BufTy).Contents (Elt F) → (⟨S256, .f32⟩ : BufTy).Contents (Elt F)),
    unary main_v26 main_v27 (Host.rsqrt : (⟨S256, .f32⟩ : BufTy).Contents (Elt F) → (⟨S256, .f32⟩ : BufTy).Contents (Elt F)),
    unary main_v27 main_v28 (broadcastInDim S1x256 ![1] bcast_S256_S1x256_1 : (⟨S256, .f32⟩ : BufTy).Contents (Elt F) → (⟨S1x256, .f32⟩ : BufTy).Contents (Elt F)),
    unary main_v28 main_v29 (broadcastInDim S50000x256 ![0, 1] bcast_S1x256_S50000x256_0_1 : (⟨S1x256, .f32⟩ : BufTy).Contents (Elt F) → (⟨S50000x256, .f32⟩ : BufTy).Contents (Elt F)),
    binary main_v24 main_v29 main_v30 (mulf : (⟨S50000x256, .f32⟩ : BufTy).Contents (Elt F) → (⟨S50000x256, .f32⟩ : BufTy).Contents (Elt F) → (⟨S50000x256, .f32⟩ : BufTy).Contents (Elt F)),
    unary main_arg4 main_v31 (broadcastInDim S1x256 ![1] bcast_S256_S1x256_1 : (⟨S256, .f32⟩ : BufTy).Contents (Elt F) → (⟨S1x256, .f32⟩ : BufTy).Contents (Elt F)),
    unary main_v31 main_v32 (broadcastInDim S50000x256 ![0, 1] bcast_S1x256_S50000x256_0_1 : (⟨S1x256, .f32⟩ : BufTy).Contents (Elt F) → (⟨S50000x256, .f32⟩ : BufTy).Contents (Elt F)),
    binary main_v30 main_v32 main_v33 (mulf : (⟨S50000x256, .f32⟩ : BufTy).Contents (Elt F) → (⟨S50000x256, .f32⟩ : BufTy).Contents (Elt F) → (⟨S50000x256, .f32⟩ : BufTy).Contents (Elt F)),
    unary main_arg5 main_v34 (broadcastInDim S1x256 ![1] bcast_S256_S1x256_1 : (⟨S256, .f32⟩ : BufTy).Contents (Elt F) → (⟨S1x256, .f32⟩ : BufTy).Contents (Elt F)),
    unary main_v34 main_v35 (broadcastInDim S50000x256 ![0, 1] bcast_S1x256_S50000x256_0_1 : (⟨S1x256, .f32⟩ : BufTy).Contents (Elt F) → (⟨S50000x256, .f32⟩ : BufTy).Contents (Elt F)),
    binary main_v33 main_v35 main_v36 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v36) main_call1.v0 main_call1.v1 (cmpf .ogt),
    TRef.nullary main_call1.cst_0 (constant S_ .f32 0x00000000#32),
    TRef.unary main_call1.cst_0 main_call1.v2 (broadcastInDim S50000x256 ![] bcast_S_S50000x256),
    TRef.binary (.of main_v36) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x256 ![] bcast_S_S50000x256),
    TRef.ternary main_call1.v3 main_call1.call0.v1 (.of main_v36) main_call1.call0.v2 select,
    TRef.unary main_call1.call0.v2 main_call1.v5 Host.expm1,
    TRef.nullary main_call1.cst_2 (constant S_ .f32 0x3F800000#32),
    TRef.unary main_call1.cst_2 main_call1.v6 (broadcastInDim S50000x256 ![] bcast_S_S50000x256),
    TRef.binary main_call1.v6 main_call1.v5 main_call1.v7 mulf,
    TRef.ternary main_call1.v1 (.of main_v36) main_call1.v7 main_call1.call1.v0 select,
    binary main_arg0 main_arg6 main_v38 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg7 main_v39 (broadcastInDim S1x256 ![1] bcast_S256_S1x256_1 : (⟨S256, .f32⟩ : BufTy).Contents (Elt F) → (⟨S1x256, .f32⟩ : BufTy).Contents (Elt F)),
    unary main_v39 main_v40 (broadcastInDim S50000x256 ![0, 1] bcast_S1x256_S50000x256_0_1 : (⟨S1x256, .f32⟩ : BufTy).Contents (Elt F) → (⟨S50000x256, .f32⟩ : BufTy).Contents (Elt F)),
    binary main_v38 main_v40 main_v41 (addf : (⟨S50000x256, .f32⟩ : BufTy).Contents (Elt F) → (⟨S50000x256, .f32⟩ : BufTy).Contents (Elt F) → (⟨S50000x256, .f32⟩ : BufTy).Contents (Elt F)),
    binary main_v41 main_v37 main_v42 (addf : (⟨S50000x256, .f32⟩ : BufTy).Contents (Elt F) → (⟨S50000x256, .f32⟩ : BufTy).Contents (Elt F) → (⟨S50000x256, .f32⟩ : BufTy).Contents (Elt F)) ]

-- eighty-five binds re-associated: the rewrite under the chain recurses once per statement
set_option maxRecDepth 4096 in
set_option maxHeartbeats 4000000 in
/-- @main is that straight line: the functions' bodies unfolded at their calls, both sides are one chain
    of steps once sequencing is re-associated. -/
theorem main_eq (c : Dev nD) : main (F := F) c = seq ops := by
  simp only [main, fn_var.body, fn_where.body, fn_elu.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..,
    binary_bufs_sub ..⟩

set_option maxRecDepth 8192 in
set_option maxHeartbeats 1600000 in
/-- The fold at the result buffer is the pure term of the arguments: each operation's result at its own
    buffer is its function of its operands' contents, at any other buffer what was there; what is left is
    the chain of `let`s of `RTerm.result`, operation by operation. -/
theorem out_eq (V : Valuation τ sig (Elt F)) :
    after ops V (main_v42 : DevRef τ sig)
      = RTerm.result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

set_option maxRecDepth 8192 in
set_option maxHeartbeats 1600000 in
/-- No operation writes argument 0's buffer. -/
theorem arg0_eq (V : Valuation τ sig (Elt F)) :
    after ops V (main_arg0 : DevRef τ sig) = V (main_arg0 : DevRef τ sig) := by
  after_results_simp

set_option maxRecDepth 8192 in
set_option maxHeartbeats 1600000 in
/-- No operation writes argument 1's buffer. -/
theorem arg1_eq (V : Valuation τ sig (Elt F)) :
    after ops V (main_arg1 : DevRef τ sig) = V (main_arg1 : DevRef τ sig) := by
  after_results_simp

set_option maxRecDepth 8192 in
set_option maxHeartbeats 1600000 in
/-- No operation writes argument 2's buffer. -/
theorem arg2_eq (V : Valuation τ sig (Elt F)) :
    after ops V (main_arg2 : DevRef τ sig) = V (main_arg2 : DevRef τ sig) := by
  after_results_simp

set_option maxRecDepth 8192 in
set_option maxHeartbeats 1600000 in
/-- No operation writes argument 3's buffer. -/
theorem arg3_eq (V : Valuation τ sig (Elt F)) :
    after ops V (main_arg3 : DevRef τ sig) = V (main_arg3 : DevRef τ sig) := by
  after_results_simp

set_option maxRecDepth 8192 in
set_option maxHeartbeats 1600000 in
/-- No operation writes argument 4's buffer. -/
theorem arg4_eq (V : Valuation τ sig (Elt F)) :
    after ops V (main_arg4 : DevRef τ sig) = V (main_arg4 : DevRef τ sig) := by
  after_results_simp

set_option maxRecDepth 8192 in
set_option maxHeartbeats 1600000 in
/-- No operation writes argument 5's buffer. -/
theorem arg5_eq (V : Valuation τ sig (Elt F)) :
    after ops V (main_arg5 : DevRef τ sig) = V (main_arg5 : DevRef τ sig) := by
  after_results_simp

set_option maxRecDepth 8192 in
set_option maxHeartbeats 1600000 in
/-- No operation writes argument 6's buffer. -/
theorem arg6_eq (V : Valuation τ sig (Elt F)) :
    after ops V (main_arg6 : DevRef τ sig) = V (main_arg6 : DevRef τ sig) := by
  after_results_simp

set_option maxRecDepth 8192 in
set_option maxHeartbeats 1600000 in
/-- No operation writes argument 7's buffer. -/
theorem arg7_eq (V : Valuation τ sig (Elt F)) :
    after ops V (main_arg7 : DevRef τ sig) = V (main_arg7 : DevRef τ sig) := by
  after_results_simp

/-- On the device, for any float values, from any memory with zero counters: every weakly fair execution
    of @main terminates with the result buffer at `RTerm.result` of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v42)
          = RTerm.result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v42).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.HandRun

end
-- ==== Proof.RValue.lean ====
/-
  The reference program's result read at one index (i, j).

  Every operation of the reference but two is pointwise or a copy along an axis, and reads through at an index by
  unfolding. The two that are not: the matrix product, a sum over the contracted coordinate, and the column sum over
  the 50000 rows. With these read at an index the four stretches of the reference's term give, one after the other,
  the shortcut plus ELU of the entry, the normalised entry from given column statistics, the column statistics
  themselves, and the first linear map of the aggregated features.
-/
import proofs.«418842_j13795434955523_2_alg».proof.Proof.RTerm
import proofs.«418842_j13795434955523_2_alg».proof.Proof.AggDefs
import proofs.«418842_j13795434955523_2_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.ReferenceIdeal.RValue

open Idealize.ShloMosaic Idealize.ShloMosaic.ValueIdx Cert.ReferenceIdeal
open scoped BigOperators

variable [Cert.ReferenceIdeal.Facts]
open Cert.ReferenceIdeal.Facts Cert.ReferenceIdeal.Facts₀

/-! ## Layout: a vector copied into every row, a scalar copied everywhere -/

/-- A length-256 vector made a one-row matrix and copied down the 50000 rows reads, at (i, j), the vector at j. -/
theorem rows_apply {α : Type} (v : S256.Idx → α) (i : Fin 50000) (j : Fin 256) :
    broadcastInDim S50000x256 ![0, 1] bcast_S1x256_S50000x256_0_1 (broadcastInDim S1x256 ![1] bcast_S256_S1x256_1 v) (ix2 i j)
      = v (ix1 j) := by
  refine (broadcastInDim_apply _ _ _ (ix2 i j) (ix2 (0 : Fin 1) j) (fun a => match a with | ⟨0, _⟩ => rfl | ⟨1, _⟩ => rfl)).trans ?_
  exact broadcastInDim_apply _ _ _ (ix2 (0 : Fin 1) j) (ix1 j) (fun a => match a with | ⟨0, _⟩ => rfl)

/-! ## The two matrix products -/

theorem lhs_dot_0 (j : S50000x256.Idx) (k : dot_S50000x128_S128x256_S50000x256_1_0_0_1_n_n.contr.Idx) :
    (dot_S50000x128_S128x256_S50000x256_1_0_0_1_n_n.lhsIdx j k 0).val = (j 0).val := by
  unfold DotDims.lhsIdx
  rw [dif_neg (show ¬(0 : Fin S50000x128.rank) ∈ dot_S50000x128_S128x256_S50000x256_1_0_0_1_n_n.lhsBatch from List.not_mem_nil),
    dif_pos (show (0 : Fin S50000x128.rank) ∈ dot_S50000x128_S128x256_S50000x256_1_0_0_1_n_n.lhsNonContracting from List.mem_singleton.mpr rfl)]
  rfl

theorem lhs_dot_1 (j : S50000x256.Idx) (k : dot_S50000x128_S128x256_S50000x256_1_0_0_1_n_n.contr.Idx) :
    (dot_S50000x128_S128x256_S50000x256_1_0_0_1_n_n.lhsIdx j k 1).val = (k ⟨0, Nat.one_pos⟩).val :=
  dot_S50000x128_S128x256_S50000x256_1_0_0_1_n_n.lhsIdx_val_of_single rfl j k

theorem rhs_dot_0 (j : S50000x256.Idx) (k : dot_S50000x128_S128x256_S50000x256_1_0_0_1_n_n.contr.Idx) :
    (dot_S50000x128_S128x256_S50000x256_1_0_0_1_n_n.rhsIdx j k 0).val = (k ⟨0, Nat.one_pos⟩).val :=
  dot_S50000x128_S128x256_S50000x256_1_0_0_1_n_n.rhsIdx_val_of_single rfl j k

theorem rhs_dot_1 (j : S50000x256.Idx) (k : dot_S50000x128_S128x256_S50000x256_1_0_0_1_n_n.contr.Idx) :
    (dot_S50000x128_S128x256_S50000x256_1_0_0_1_n_n.rhsIdx j k 1).val = (j 1).val := by
  unfold DotDims.rhsIdx
  rw [dif_neg (show ¬(1 : Fin S128x256.rank) ∈ dot_S50000x128_S128x256_S50000x256_1_0_0_1_n_n.rhsBatch from List.not_mem_nil),
    dif_pos (show (1 : Fin S128x256.rank) ∈ dot_S50000x128_S128x256_S50000x256_1_0_0_1_n_n.rhsNonContracting from List.mem_singleton.mpr rfl)]
  rfl

/-- The product of a 50000×128 by a 128×256 matrix at (i, j): the sum over the contracted coordinate. -/
theorem dot_apply (A : FVec Ideal S50000x128 .f32) (W : FVec Ideal S128x256 .f32) (i : Fin 50000) (j : Fin 256) :
    Host.dotGeneral (F := Ideal) dot_S50000x128_S128x256_S50000x256_1_0_0_1_n_n none A W (ix2 i j)
      = ∑ k : Fin 128, A (ix2 i k) * W (ix2 k j) := by
  show FloatOps.dotGeneral _ none _ A W (ix2 i j) = _
  rw [Ideal.dotGeneral_apply,
    ← Equiv.sum_comp (contrEquiv1 dot_S50000x128_S128x256_S50000x256_1_0_0_1_n_n 128 rfl rfl).symm]
  refine Finset.sum_congr rfl fun c _ => ?_
  have hk := contrEquiv1_symm_val dot_S50000x128_S128x256_S50000x256_1_0_0_1_n_n 128 rfl rfl c
  have hl : dot_S50000x128_S128x256_S50000x256_1_0_0_1_n_n.lhsIdx (ix2 i j)
      ((contrEquiv1 dot_S50000x128_S128x256_S50000x256_1_0_0_1_n_n 128 rfl rfl).symm c) = ix2 i c := by
    funext a; apply Fin.ext
    match a with
    | ⟨0, _⟩ => exact lhs_dot_0 _ _
    | ⟨1, _⟩ => exact (lhs_dot_1 _ _).trans hk
  have hr : dot_S50000x128_S128x256_S50000x256_1_0_0_1_n_n.rhsIdx (ix2 i j)
      ((contrEquiv1 dot_S50000x128_S128x256_S50000x256_1_0_0_1_n_n 128 rfl rfl).symm c) = ix2 c j := by
    funext a; apply Fin.ext
    match a with
    | ⟨0, _⟩ => exact (rhs_dot_0 _ _).trans hk
    | ⟨1, _⟩ => exact rhs_dot_1 _ _
  rw [hl, hr]

/-- A linear map with its bias, at (i, j): (Σ_k A i k · W k j) + b j. -/
theorem lin_apply (A : FVec Ideal S50000x128 .f32) (W : FVec Ideal S128x256 .f32) (b : FVec Ideal S256 .f32)
    (i : Fin 50000) (j : Fin 256) :
    addf (Host.dotGeneral (F := Ideal) dot_S50000x128_S128x256_S50000x256_1_0_0_1_n_n none A W)
        (broadcastInDim S50000x256 ![0, 1] bcast_S1x256_S50000x256_0_1 (broadcastInDim S1x256 ![1] bcast_S256_S1x256_1 b)) (ix2 i j)
      = (∑ k : Fin 128, A (ix2 i k) * W (ix2 k j)) + b (ix1 j) := by
  rw [addf_apply, dot_apply, rows_apply]

/-! ## A column sum over the 50000 rows -/

/-- The sum of a 50000×256 array over its rows from an initial scalar, at column j. -/
theorem colSum_apply (O : FVec Ideal S50000x256 .f32) (z : FVec Ideal S_ .f32) (j : Fin 256) :
    Host.reduceAdd (F := Ideal) O z reducesTo_S50000x256_S256_d0 h_S_ (ix1 j) = z ix0 + ∑ i : Fin 50000, O (ix2 i j) := by
  have h : S50000x256.Reduces [0] S256 := by decide
  rw [hostReduceAdd_apply, Ideal.hostReduceAdd_single _ h, eq_ix0 (Shape.Idx.first h_S_)]
  refine congrArg (z ix0 + ·) (Finset.sum_congr rfl fun k _ => congrArg O ?_)
  funext a; apply Fin.ext
  match a with
  | ⟨0, _⟩ => rfl
  | ⟨1, _⟩ => rfl

/-! ## The four stretches of the reference's term -/

section
variable (a0 : FVec Ideal S50000x128 .f32) (a4 a5 : FVec Ideal S256 .f32) (a6 : FVec Ideal S128x256 .f32) (a7 : FVec Ideal S256 .f32)

/-- The last stretch: the shortcut plus ELU of the entry. -/
theorem part3_at (B : FVec Ideal S50000x256 .f32) (i : Fin 50000) (j : Fin 256) :
    RTerm.result_part3 (F := Ideal) a0 a6 a7 B (ix2 i j)
      = Cert.Spec.shortcut (fun i k => a0 (ix2 i k)) (fun k j => a6 (ix2 k j)) (fun j => a7 (ix1 j)) i j
        + Cert.Spec.eluR (B (ix2 i j)) := by
  show addf (Host.dotGeneral (F := Ideal) dot_S50000x128_S128x256_S50000x256_1_0_0_1_n_n none a0 a6)
        (broadcastInDim S50000x256 ![0, 1] bcast_S1x256_S50000x256_0_1 (broadcastInDim S1x256 ![1] bcast_S256_S1x256_1 a7)) (ix2 i j)
      + Cert.Spec.eluR (B (ix2 i j)) = _
  rw [lin_apply]
  rfl

/-- The third stretch: the entry normalised by given column statistics, scaled and shifted, then the last stretch. -/
theorem part2_at (O : FVec Ideal S50000x256 .f32) (m v : FVec Ideal S256 .f32) (i : Fin 50000) (j : Fin 256) :
    RTerm.result_part2 (F := Ideal) a0 a4 a5 a6 a7 O m v (ix2 i j)
      = Cert.Spec.shortcut (fun i k => a0 (ix2 i k)) (fun k j => a6 (ix2 k j)) (fun j => a7 (ix1 j)) i j
        + Cert.Spec.eluR (((O (ix2 i j) - m (ix1 j)) * Ideal.rsqrt (v (ix1 j) + Cert.Spec.epsF)) * a4 (ix1 j) + a5 (ix1 j)) := by
  unfold RTerm.result_part2
  dsimp only
  rw [part3_at]
  simp only [addf_apply, mulf_apply, subf_apply]
  rw [rows_apply, rows_apply, rows_apply, rows_apply]
  rfl

/-- The column mean of an array over its 50000 rows, and its column variance (the mean of the squared deviations where
    the divisor 50000 − 0 is positive). -/
def colMean (o : Fin 50000 → Fin 256 → EReal) (j : Fin 256) : EReal :=
  Ideal.div (Cert.Spec.zeroF + ∑ i : Fin 50000, o i j) Cert.Spec.nF
def colVar (o : Fin 50000 → Fin 256 → EReal) (j : Fin 256) : EReal :=
  Scalar.select (Ideal.cmp .ogt Cert.Spec.rDen Cert.Spec.zeroF)
    (Ideal.div (Cert.Spec.zeroF + ∑ i : Fin 50000, (o i j - colMean o j) * (o i j - colMean o j)) Cert.Spec.rDen)
    Cert.Spec.nanF

/-- The column means the second stretch computes, and the column variances, as the program's own operations. -/
def meanV (O : FVec Ideal S50000x256 .f32) : FVec Ideal S256 .f32 :=
  let main_cst_1 : FVec Ideal S_ .f32 := constant S_ .f32 0x00000000#32
  let main_v18 : FVec Ideal S256 .f32 := (fun x v => Host.reduceAdd x v reducesTo_S50000x256_S256_d0 h_S_) O main_cst_1
  let main_cst_2 : FVec Ideal S_ .f32 := constant S_ .f32 0x47435000#32
  let main_v19 : FVec Ideal S256 .f32 := broadcastInDim S256 ![] bcast_S_S256 main_cst_2
  Host.divf main_v18 main_v19
def varV (O : FVec Ideal S50000x256 .f32) : FVec Ideal S256 .f32 :=
  let main_c_3 : IVec S_ 32 := constantI S_ 32 0#32
  let main_call0_cst : FVec Ideal S_ .f32 := constant S_ .f32 0x00000000#32
  let main_call0_v0 : FVec Ideal S256 .f32 := (fun x v => Host.reduceAdd x v reducesTo_S50000x256_S256_d0 h_S_) O main_call0_cst
  let main_call0_v1 : FVec Ideal S1x256 .f32 := broadcastInDim S1x256 ![1] bcast_S256_S1x256_1 main_call0_v0
  let main_call0_cst_0 : FVec Ideal S_ .f32 := constant S_ .f32 0x47435000#32
  let main_call0_v2 : FVec Ideal S1x256 .f32 := broadcastInDim S1x256 ![] bcast_S_S1x256 main_call0_cst_0
  let main_call0_v3 : FVec Ideal S1x256 .f32 := Host.divf main_call0_v1 main_call0_v2
  let main_call0_v4 : FVec Ideal S50000x256 .f32 := broadcastInDim S50000x256 ![0, 1] bcast_S1x256_S50000x256_0_1 main_call0_v3
  let main_call0_v5 : FVec Ideal S50000x256 .f32 := subf O main_call0_v4
  let main_call0_v6 : FVec Ideal S50000x256 .f32 := mulf main_call0_v5 main_call0_v5
  let main_call0_v7 : FVec Ideal S_ .f32 := sitofp .f32 main_c_3
  let main_call0_cst_1 : FVec Ideal S_ .f32 := constant S_ .f32 0x47435000#32
  let main_call0_v8 : FVec Ideal S_ .f32 := subf main_call0_cst_1 main_call0_v7
  let main_call0_cst_2 : FVec Ideal S_ .f32 := constant S_ .f32 0x00000000#32
  let main_call0_v9 : FVec Ideal S256 .f32 := (fun x v => Host.reduceAdd x v reducesTo_S50000x256_S256_d0 h_S_) main_call0_v6 main_call0_cst_2
  let main_call0_v10 : FVec Ideal S256 .f32 := broadcastInDim S256 ![] bcast_S_S256 main_call0_v8
  let main_call0_v11 : FVec Ideal S256 .f32 := Host.divf main_call0_v9 main_call0_v10
  let main_call0_cst_3 : FVec Ideal S_ .f32 := constant S_ .f32 0x00000000#32
  let main_call0_v12 : IVec S_ 1 := cmpf .ogt main_call0_v8 main_call0_cst_3
  let main_call0_cst_4 : FVec Ideal S_ .f32 := constant S_ .f32 0x7FC00000#32
  let main_call0_call0_v0 : FVec Ideal S_ .f32 := id main_call0_cst_4
  let main_call0_call0_v1 : FVec Ideal S256 .f32 := broadcastInDim S256 ![] bcast_S_S256 main_call0_call0_v0
  (fun p a b => select (broadcastInDim S256 ![] bcast_S_S256 p) a b) main_call0_v12 main_call0_v11 main_call0_call0_v1

/-- The second stretch computes these two vectors and hands them to the third. -/
theorem part1_eq (O : FVec Ideal S50000x256 .f32) :
    RTerm.result_part1 (F := Ideal) a0 a4 a5 a6 a7 O = RTerm.result_part2 (F := Ideal) a0 a4 a5 a6 a7 O (meanV O) (varV O) := rfl

/-- The computed column mean at j. -/
theorem meanV_apply (O : FVec Ideal S50000x256 .f32) (j : Fin 256) :
    meanV O (ix1 j) = colMean (fun i j => O (ix2 i j)) j := by
  unfold meanV
  dsimp only
  rw [hostDivf_apply, colSum_apply]
  rfl

/-- The mean inside the variance, copied down the rows, at (i, j). -/
theorem innerMean_apply (O : FVec Ideal S50000x256 .f32) (i : Fin 50000) (j : Fin 256) :
    broadcastInDim S50000x256 ![0, 1] bcast_S1x256_S50000x256_0_1
        (Host.divf (broadcastInDim S1x256 ![1] bcast_S256_S1x256_1
            (Host.reduceAdd (F := Ideal) O (constant S_ .f32 0x00000000#32) reducesTo_S50000x256_S256_d0 h_S_))
          (broadcastInDim S1x256 ![] bcast_S_S1x256 (constant S_ .f32 0x47435000#32))) (ix2 i j)
      = colMean (fun i j => O (ix2 i j)) j := by
  refine (broadcastInDim_apply _ _ _ (ix2 i j) (ix2 (0 : Fin 1) j) (fun a => match a with | ⟨0, _⟩ => rfl | ⟨1, _⟩ => rfl)).trans ?_
  rw [hostDivf_apply]
  rw [broadcastInDim_apply _ bcast_S256_S1x256_1 _ (ix2 (0 : Fin 1) j) (ix1 j) (fun a => match a with | ⟨0, _⟩ => rfl)]
  rw [colSum_apply]
  rfl

/-- The squared deviation from the column mean at (i, j). -/
theorem sqDev_apply (O : FVec Ideal S50000x256 .f32) (i : Fin 50000) (j : Fin 256) :
    mulf
        (subf O (broadcastInDim S50000x256 ![0, 1] bcast_S1x256_S50000x256_0_1
          (Host.divf (broadcastInDim S1x256 ![1] bcast_S256_S1x256_1
              (Host.reduceAdd (F := Ideal) O (constant S_ .f32 0x00000000#32) reducesTo_S50000x256_S256_d0 h_S_))
            (broadcastInDim S1x256 ![] bcast_S_S1x256 (constant S_ .f32 0x47435000#32)))))
        (subf O (broadcastInDim S50000x256 ![0, 1] bcast_S1x256_S50000x256_0_1
          (Host.divf (broadcastInDim S1x256 ![1] bcast_S256_S1x256_1
              (Host.reduceAdd (F := Ideal) O (constant S_ .f32 0x00000000#32) reducesTo_S50000x256_S256_d0 h_S_))
            (broadcastInDim S1x256 ![] bcast_S_S1x256 (constant S_ .f32 0x47435000#32))))) (ix2 i j)
      = (O (ix2 i j) - colMean (fun i j => O (ix2 i j)) j) * (O (ix2 i j) - colMean (fun i j => O (ix2 i j)) j) := by
  rw [mulf_apply, subf_apply, innerMean_apply]

/-- The divisor 50000 − 0 copied to every column, the test that it is positive, and the word kept where it is not. -/
theorem den_apply (q : S256.Idx) :
    broadcastInDim S256 ![] bcast_S_S256
        (subf (constant (F := Ideal) S_ .f32 0x47435000#32) (sitofp .f32 (constantI S_ 32 0#32))) q = Cert.Spec.rDen := rfl
theorem guard_apply (q : S256.Idx) :
    broadcastInDim S256 ![] bcast_S_S256
        (cmpf .ogt (subf (constant (F := Ideal) S_ .f32 0x47435000#32) (sitofp .f32 (constantI S_ 32 0#32)))
          (constant S_ .f32 0x00000000#32)) q = Ideal.cmp .ogt Cert.Spec.rDen Cert.Spec.zeroF := rfl
theorem nan_apply (q : S256.Idx) :
    broadcastInDim S256 ![] bcast_S_S256 (id (constant (F := Ideal) S_ .f32 0x7FC00000#32)) q = Cert.Spec.nanF := rfl

/-- The computed column variance at j. -/
theorem varV_apply (O : FVec Ideal S50000x256 .f32) (j : Fin 256) :
    varV O (ix1 j) = colVar (fun i j => O (ix2 i j)) j := by
  unfold varV
  dsimp only
  rw [select_apply, hostDivf_apply, colSum_apply, Finset.sum_congr rfl fun i _ => sqDev_apply O i j,
    den_apply, guard_apply, nan_apply]
  rfl

/-- The second stretch at (i, j), over any reading o of its operand. -/
theorem part1_at (O : FVec Ideal S50000x256 .f32) (o : Fin 50000 → Fin 256 → EReal) (hO : ∀ i j, O (ix2 i j) = o i j)
    (i : Fin 50000) (j : Fin 256) :
    RTerm.result_part1 (F := Ideal) a0 a4 a5 a6 a7 O (ix2 i j)
      = Cert.Spec.shortcut (fun i k => a0 (ix2 i k)) (fun k j => a6 (ix2 k j)) (fun j => a7 (ix1 j)) i j
        + Cert.Spec.eluR (((o i j - colMean o j) * Ideal.rsqrt (colVar o j + Cert.Spec.epsF)) * a4 (ix1 j) + a5 (ix1 j)) := by
  have ho : (fun i j => O (ix2 i j)) = o := funext fun i => funext fun j => hO i j
  rw [part1_eq, part2_at, meanV_apply, varV_apply, ho, hO]

end

/-- THE REFERENCE'S RESULT AT (i, j): the shortcut plus ELU of the batch-normalised first linear map of the aggregated
    features, the statistics taken over whole columns. -/
theorem result_at (a0 : FVec Ideal S50000x128 .f32) (a1 : IVec S2x600000 32) (a2 : FVec Ideal S128x256 .f32) (a3 a4 a5 : FVec Ideal S256 .f32)
    (a6 : FVec Ideal S128x256 .f32) (a7 : FVec Ideal S256 .f32) (i : Fin 50000) (j : Fin 256) :
    RTerm.result (F := Ideal) a0 a1 a2 a3 a4 a5 a6 a7 (ix2 i j)
      = Cert.Spec.Rout (fun i k => Agg.agg (F := Ideal) a0 a1 (ix2 i k)) (fun i k => a0 (ix2 i k)) (fun k j => a2 (ix2 k j)) (fun k j => a6 (ix2 k j))
          (fun j => a3 (ix1 j)) (fun j => a4 (ix1 j)) (fun j => a5 (ix1 j)) (fun j => a7 (ix1 j)) i j := by
  show RTerm.result_part1 (F := Ideal) a0 a4 a5 a6 a7
      (addf (Host.dotGeneral (F := Ideal) dot_S50000x128_S128x256_S50000x256_1_0_0_1_n_n none (Agg.agg (F := Ideal) a0 a1) a2)
        (broadcastInDim S50000x256 ![0, 1] bcast_S1x256_S50000x256_0_1 (broadcastInDim S1x256 ![1] bcast_S256_S1x256_1 a3))) (ix2 i j) = _
  exact part1_at a0 a4 a5 a6 a7 _
    (Cert.Spec.outLin (fun i k => Agg.agg (F := Ideal) a0 a1 (ix2 i k)) (fun k j => a2 (ix2 k j)) (fun j => a3 (ix1 j)))
    (fun i j => lin_apply (Agg.agg (F := Ideal) a0 a1) a2 a3 i j) i j

end Cert.ReferenceIdeal.RValue

end
-- ==== Proof.SpecLaw.lean ====
/-
  The law behind the certificate: the blockwise column statistics (25 blocks of 2000 rows, variance as
  E[o²] − mean², clamped at 0) and the whole-column statistics (variance as the mean squared deviation) give the same
  batch-normalised, ELU-activated output whenever every entry of out_lin is a finite real.

  * The mean: a sum over 25 blocks of 2000 rows is the sum over all 50000 rows (re-indexing along
    (t, r) ↦ 2000·t + r), in any additive commutative monoid — no finiteness is needed.
  * The variance (König–Huygens): with μ = S/N, Σ (oᵢ − μ)² = Σ oᵢ² − 2μS + Nμ² = Q − S²/N, so
    Q/N − μ² = Σ (oᵢ − μ)²/N ≥ 0 and the clamp at 0 does nothing. This is an identity of reals; it is carried
    to the extended reals through the coercion, which is why out_lin must be finite.
  * ELU: where b > 0 both spellings give b; elsewhere the inner select gives b and 1·(eᵇ − 1) = eᵇ − 1.
-/
import proofs.«418842_j13795434955523_2_alg».proof.Proof.Spec
import Mathlib.Data.EReal.Basic
import Mathlib.Data.EReal.Operations
import Mathlib.Data.Fintype.BigOperators
import Mathlib.Algebra.BigOperators.Group.Finset.Basic
import Mathlib.Logic.Equiv.Fin.Basic
import Mathlib.Tactic.Ring
import Mathlib.Tactic.NormNum

noncomputable section

namespace Cert.Spec

open Idealize.ShloMosaic

/-! ### The constants -/

theorem zeroF_eq : zeroF = 0 := Ideal.ofBits_zero_f32

theorem oneF_eq : oneF = 1 := by
  simp [Ideal.ofBits, Ideal.ieee, -EReal.coe_mul]; norm_num

theorem nF_eq : nF = ((50000 : ℝ) : EReal) := by
  simp [Ideal.ofBits, Ideal.ieee, -EReal.coe_mul]; norm_num

theorem rDen_eq : rDen = ((50000 : ℝ) : EReal) := by
  unfold rDen; rw [nF_eq]; simp

theorem cmp_rDen : Ideal.cmp .ogt rDen zeroF = 1#1 := by
  rw [rDen_eq, zeroF_eq]
  have h : (0 : EReal) < ((50000 : ℝ) : EReal) := by exact_mod_cast (by norm_num : (0 : ℝ) < 50000)
  simp [Ideal.cmp, h]

/-! ### Sums -/

/-- The coercion of a finite real sum is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- 25 blocks of 2000 rows are all 50000 rows. -/
theorem sum_blocks {M : Type*} [AddCommMonoid M] (f : Fin 50000 → M) :
    ∑ t : Fin 25, ∑ r : Fin 2000, f (rowOf t r) = ∑ i : Fin 50000, f i := by
  rw [← Fintype.sum_prod_type' (f := fun t r => f (rowOf t r))]
  refine Fintype.sum_equiv (finProdFinEquiv : Fin 25 × Fin 2000 ≃ Fin 50000) _ _ (fun x => ?_)
  congr 1
  apply Fin.ext
  simp [rowOf, finProdFinEquiv]
  omega

/-! ### out_lin is finite -/

section
variable (A X : Fin 50000 → Fin 128 → EReal) (Wg Wsc : Fin 128 → Fin 256 → EReal) (bg gam bet bsc : Fin 256 → EReal)

/-- With finite A, Wg and bg every entry of out_lin is a real. -/
theorem outLin_finite (hA : ∀ i k, ∃ a : ℝ, A i k = (a : EReal)) (hW : ∀ k j, ∃ w : ℝ, Wg k j = (w : EReal))
    (hb : ∀ j, ∃ b : ℝ, bg j = (b : EReal)) :
    ∃ o : Fin 50000 → Fin 256 → ℝ, ∀ i j, outLin A Wg bg i j = (o i j : EReal) := by
  choose a ha using hA
  choose w hw using hW
  choose b hb' using hb
  refine ⟨fun i j => (∑ k, a i k * w k j) + b j, fun i j => ?_⟩
  simp only [outLin, ha, hw, hb', EReal.coe_add, coe_sum, EReal.coe_mul]

/-! ### The mean -/

/-- The blockwise mean is the whole-column mean, for every input. -/
theorem kMean_eq_rMean (j : Fin 256) : kMean A Wg bg j = rMean A Wg bg j := by
  unfold kMean rMean blkSum
  rw [sum_blocks (fun i => outLin A Wg bg i j)]

/-- At finite out_lin the mean is the real S/N. -/
theorem rMean_coe (o : Fin 50000 → Fin 256 → ℝ) (ho : ∀ i j, outLin A Wg bg i j = (o i j : EReal)) (j : Fin 256) :
    rMean A Wg bg j = (((∑ i, o i j) * (1 / 50000) : ℝ) : EReal) := by
  unfold rMean
  simp only [ho, ← coe_sum]
  rw [zeroF_eq, zero_add, nF_eq, Ideal.div_coe (by norm_num : (50000 : ℝ) ≠ 0), ← EReal.coe_mul]

/-! ### The variance -/

/-- König–Huygens over the reals, N = 50000: Q/N − μ² = Σ (oᵢ − μ)²/N when μ = S/N. -/
theorem koenig (o : Fin 50000 → ℝ) (μ : ℝ) (hμ : μ = (∑ i, o i) * (1 / 50000)) :
    (∑ i, o i * o i) * (1 / 50000) - μ * μ = (∑ i, (o i - μ) * (o i - μ)) * (1 / 50000) := by
  have h1 : ∑ i, (o i - μ) * (o i - μ) = (∑ i, o i * o i) - 2 * μ * (∑ i, o i) + 50000 * (μ * μ) := by
    have h : ∀ i, (o i - μ) * (o i - μ) = o i * o i - 2 * μ * o i + μ * μ := fun i => by ring
    simp only [h, Finset.sum_add_distrib, Finset.sum_sub_distrib, ← Finset.mul_sum, Finset.sum_const,
      Finset.card_univ, Fintype.card_fin, nsmul_eq_mul]
    norm_num
    ring
  have hS : ∑ i, o i = 50000 * μ := by rw [hμ]; ring
  rw [h1, hS]; ring

/-- The mean squared deviation is not negative. -/
theorem msd_nonneg (o : Fin 50000 → ℝ) (μ : ℝ) : 0 ≤ (∑ i, (o i - μ) * (o i - μ)) * (1 / 50000) :=
  mul_nonneg (Finset.sum_nonneg (fun i _ => mul_self_nonneg _)) (by norm_num)

/-- At finite out_lin the blockwise variance is the whole-column variance. -/
theorem kVar_eq_rVar (o : Fin 50000 → Fin 256 → ℝ) (ho : ∀ i j, outLin A Wg bg i j = (o i j : EReal)) (j : Fin 256) :
    kVar A Wg bg j = rVar A Wg bg j := by
  have hμ := rMean_coe A Wg bg o ho j
  have hk : kVar A Wg bg j
      = ((((∑ i, (o i j - (∑ i, o i j) * (1 / 50000)) * (o i j - (∑ i, o i j) * (1 / 50000))) * (1 / 50000) : ℝ)) : EReal) := by
    unfold kVar blkSumSq
    rw [sum_blocks (fun i => outLin A Wg bg i j * outLin A Wg bg i j), kMean_eq_rMean, hμ]
    simp only [ho, ← EReal.coe_mul, ← coe_sum]
    rw [zeroF_eq, zero_add, nF_eq, Ideal.div_coe (by norm_num : (50000 : ℝ) ≠ 0), ← EReal.coe_mul, ← EReal.coe_sub,
      koenig (fun i => o i j) _ rfl]
    exact max_eq_left (by exact_mod_cast msd_nonneg (fun i => o i j) _)
  have hr : rVar A Wg bg j
      = ((((∑ i, (o i j - (∑ i, o i j) * (1 / 50000)) * (o i j - (∑ i, o i j) * (1 / 50000))) * (1 / 50000) : ℝ)) : EReal) := by
    unfold rVar
    rw [cmp_rDen, hμ]
    simp only [ho, ← EReal.coe_sub, ← EReal.coe_mul, ← coe_sum]
    rw [zeroF_eq, zero_add, rDen_eq, Ideal.div_coe (by norm_num : (50000 : ℝ) ≠ 0), ← EReal.coe_mul]
    rfl
  rw [hk, hr]

end

/-! ### ELU -/

/-- The two spellings of ELU agree at every extended real. -/
theorem eluK_eq_eluR (b : EReal) : eluK b = eluR b := by
  unfold eluK eluR
  by_cases h : Ideal.cmp .ogt b zeroF = 1
  · simp only [Scalar.select, h, if_true]
  · simp only [Scalar.select, h, if_false]
    rw [oneF_eq, one_mul]

/-! ### The law -/

theorem Kout_eq_Rout (A X : Fin 50000 → Fin 128 → EReal) (Wg Wsc : Fin 128 → Fin 256 → EReal) (bg gam bet bsc : Fin 256 → EReal)
    (hA : ∀ i k, ∃ a : ℝ, A i k = (a : EReal)) (hW : ∀ k j, ∃ w : ℝ, Wg k j = (w : EReal)) (hb : ∀ j, ∃ b : ℝ, bg j = (b : EReal)) :
    Kout A X Wg Wsc bg gam bet bsc = Rout A X Wg Wsc bg gam bet bsc := by
  obtain ⟨o, ho⟩ := outLin_finite A Wg bg hA hW hb
  have hm : kMean A Wg bg = rMean A Wg bg := funext (kMean_eq_rMean A Wg bg)
  have hv : kVar A Wg bg = rVar A Wg bg := funext (kVar_eq_rVar A Wg bg o ho)
  funext i j
  unfold Kout Rout finalOf
  rw [hm, hv, eluK_eq_eluR]

end Cert.Spec

end
-- ==== Proof.AggLaw.lean ====
/-
  Two facts about the edge aggregation both programs open with (Proof/AggDefs.lean).

  (1) Where every source node s lies in [0, 50000), the first program's masked gather is the plain gather: the wrap
  select (s < 0) (s + 50000) s is s itself, so the two comparisons 0 ≤ s and s ≤ 49999 both hold, their conjunction is
  the word 1, the reduction by "and" from 1 over the unit axis is 1, and a select on the word 1 keeps its first branch.
  The two programs' remaining operations are the same, so the two aggregated arrays are equal.

  (2) At the extended reals the aggregation of finite features is finite: each entry is the zero word plus a finite sum
  of gathered entries, a gathered entry is an entry of x, and a finite sum of reals is a real.
-/
import proofs.«418842_j13795434955523_2_alg».proof.Proof.AggDefs
import Idealize.ShloMosaic.PureOps.Reduce
import Idealize.ShloMosaic.PureOps.Ideal
import Idealize.ShloMosaic.PureOps.Ideal.Laws
import Mathlib.Data.EReal.Basic
import Mathlib.Algebra.BigOperators.Group.Finset.Basic

noncomputable section

namespace Cert.AggLaw

open Idealize.ShloMosaic

variable [Cert.KernelIdeal.Facts] [Cert.ReferenceIdeal.Facts]

/-! ## The mask is all ones -/

/-- A left fold by "and" that starts at 1 and meets only 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- One edge's mask word: for a source word w with 0 ≤ w < 50000 (read signed) the wrap leaves w, and w passes both
    range tests. -/
theorem mask_word (w : BitVec 32) (h0 : 0 ≤ w.toInt) (h1 : w.toInt < 50000) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have e0 : (0#32 : BitVec 32).toInt = 0 := by decide
  have e1 : (49999#32 : BitVec 32).toInt = 49999 := by decide
  have hlt : IntOp.cmpi .slt w 0#32 = 0#1 := by
    simp only [IntOp.cmpi, BitVec.slt, e0]
    rw [decide_eq_false (by omega)]; rfl
  have hsel : Scalar.select (IntOp.cmpi .slt w 0#32) (IntOp.addi w 50000#32) w = w := by
    rw [hlt]; rfl
  rw [hsel]
  have hge : IntOp.cmpi .sge w 0#32 = 1#1 := by
    simp only [IntOp.cmpi, BitVec.sle, e0]
    rw [decide_eq_true (by omega)]; rfl
  have hle : IntOp.cmpi .sle w 49999#32 = 1#1 := by
    simp only [IntOp.cmpi, BitVec.sle, e1]
    rw [decide_eq_true (by omega)]; rfl
  rw [hge, hle]; decide

/-- With every source in range, the first program's range test is 1 at every edge. -/
theorem inRange_one (s : IVec Cert.KernelIdeal.S600000 32)
    (hs : ∀ k, 0 ≤ (s k).toInt ∧ (s k).toInt < 50000) (k : Cert.KernelIdeal.S600000.Idx) :
    Cert.KernelIdeal.Agg.inRange (Cert.KernelIdeal.Agg.wrapped s) k = 1#1 := by
  unfold Cert.KernelIdeal.Agg.inRange
  dsimp only
  rw [Host.reduce_eq_foldl]
  refine foldl_andi_ones _ (fun i => ?_) _
  exact mask_word _ (hs _).1 (hs _).2

/-- With every source in range, the first program's masked gather is the plain gather of the wrapped sources. -/
theorem take_eq (x : FVec Ideal Cert.KernelIdeal.S50000x128 .f32) (s : IVec Cert.KernelIdeal.S600000 32)
    (hs : ∀ k, 0 ≤ (s k).toInt ∧ (s k).toInt < 50000) :
    Cert.KernelIdeal.Agg.take (F := Ideal) x s
      = Host.gather Cert.KernelIdeal.gather_S50000x128_S600000x1_S600000x128_1_0_n_n_0_1_1128 x
          (Cert.KernelIdeal.Agg.wrapped s) := by
  funext j
  unfold Cert.KernelIdeal.Agg.take
  dsimp only
  show Scalar.select (Cert.KernelIdeal.Agg.inRange (Cert.KernelIdeal.Agg.wrapped s) _) _ _ = _
  rw [inRange_one s hs]
  rfl

/-! ## The two aggregations agree -/

theorem ker_eq_ref (x : FVec Ideal Cert.KernelIdeal.S50000x128 .f32) (e : IVec Cert.KernelIdeal.S2x600000 32)
    (hsrc : ∀ k, 0 ≤ (Cert.KernelIdeal.Agg.src e k).toInt ∧ (Cert.KernelIdeal.Agg.src e k).toInt < 50000) :
    Cert.KernelIdeal.Agg.agg (F := Ideal) x e = Cert.ReferenceIdeal.Agg.agg (F := Ideal) x e := by
  unfold Cert.KernelIdeal.Agg.agg Cert.ReferenceIdeal.Agg.agg
  dsimp only
  rw [take_eq x _ hsrc]
  rfl

/-! ## The aggregation of finite features is finite -/

/-- A finite sum of reals, taken in the extended reals, is a real. -/
theorem sum_real {ι : Type} (S : Finset ι) (f : ι → EReal) (hf : ∀ j, ∃ r : ℝ, f j = (r : EReal)) :
    ∃ r : ℝ, ∑ j ∈ S, f j = (r : EReal) := by
  classical
  induction S using Finset.induction_on with
  | empty => exact ⟨0, by rw [Finset.sum_empty, EReal.coe_zero]⟩
  | insert a S ha ih =>
    obtain ⟨r, hr⟩ := ih
    obtain ⟨q, hq⟩ := hf a
    exact ⟨q + r, by rw [Finset.sum_insert ha, hr, hq, EReal.coe_add]⟩

theorem ref_real (x : FVec Ideal Cert.ReferenceIdeal.S50000x128 .f32) (e : IVec Cert.ReferenceIdeal.S2x600000 32)
    (hx : ∀ i, ∃ r : ℝ, x i = (r : EReal)) :
    ∀ i, ∃ r : ℝ, Cert.ReferenceIdeal.Agg.agg (F := Ideal) x e i = (r : EReal) := by
  intro i
  unfold Cert.ReferenceIdeal.Agg.agg
  dsimp only
  unfold Host.scatterAdd
  rw [Ideal.hostScatterAdd_def]
  unfold Ideal.hostScatterAdd
  obtain ⟨r, hr⟩ := sum_real
    (Finset.univ.filter fun j =>
      Cert.ReferenceIdeal.scatter_S50000x128_S600000x1_S600000x128_1_0_0_1.resultIdx? j
        (broadcastInDim Cert.ReferenceIdeal.S600000x1 ![0] Cert.ReferenceIdeal.Facts₀.bcast_S600000_S600000x1_0
          (Cert.ReferenceIdeal.Agg.dst e)) = some i)
    (Host.gather Cert.ReferenceIdeal.gather_S50000x128_S600000x1_S600000x128_1_0_n_n_0_1_1128 x
      (Cert.ReferenceIdeal.Agg.wrapped (Cert.ReferenceIdeal.Agg.src e)))
    (fun j => hx _)
  refine ⟨r, ?_⟩
  rw [hr]
  show Ideal.ofBits .f32 0x00000000#32 + (r : EReal) = (r : EReal)
  rw [Ideal.ofBits_zero_f32, zero_add]

end Cert.AggLaw

end
-- ==== Proof.PreFacts.lean ====
/-
  What the certificate's precondition says of its arguments, decoded. The precondition is a conjunction of eight
  "all elements" tests, each a reduction by "and" from 1 of an array of one-bit comparison words: for every float
  argument |a| < +inf at every element, and for row 0 of the edge list 0 <= e and e < 50000 at every element, read signed.
  A reduction by "and" that comes out 1 met a 1 at every element, so each test gives its comparison at a symbolic
  index. In the extended reals |x| = max x (-x) is below +inf exactly when x is neither infinity, that is, x is a real;
  the two signed comparisons are the bounds on the word's signed value.
-/
import proofs.«418842_j13795434955523_2_alg».proof.Pre_finite_inputs
import proofs.«418842_j13795434955523_2_alg».proof.Proof.AggDefs
import Idealize.ShloMosaic.Lib.ReduceAll
import Idealize.ShloMosaic.Lib.StableHlo.Predicate
import Idealize.ShloMosaic.PureOps.Ideal
import Idealize.ShloMosaic.PureOps.Ideal.Laws

noncomputable section

namespace Cert.PreFacts

open Idealize.ShloMosaic

/-- The rank-0 shape has one index. -/
local instance subsingleton_scalar_idx : Subsingleton (⟨0, ![]⟩ : Shape).Idx := ⟨fun a b => funext fun d => d.elim0⟩

/-- The one index of the rank-0 shape. -/
abbrev j0 : (⟨0, ![]⟩ : Shape).Idx := fun a => a.elim0

/-- An extended real whose absolute value max x (-x) is strictly below +inf is a real: at -inf the absolute value is
    +inf, at +inf it is +inf, and neither is below +inf. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  induction x using EReal.rec with
  | bot => exact absurd h (by simp [Ideal.cmp])
  | top => exact absurd h (by simp [Ideal.cmp])
  | coe r => exact ⟨r, rfl⟩

/-- "All |x| < +inf" over an array of any shape, reduced over all its axes to a scalar: every element is a real. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr h0 j0 = 1#1) (i : s.Idx) : ∃ r : ℝ, x i = (r : EReal) :=
  real_of_abs_lt_top (x i) (Host.reduce_andi_all _ _ hr h0 j0 e i)

/-- A word whose signed comparisons "0 <= w" and "w < 50000" both came out 1 has its signed value in [0, 50000). -/
theorem range_of_cmp (w : BitVec 32)
    (h : IntOp.andi (IntOp.cmpi .sge w 0#32) (IntOp.cmpi .slt w 50000#32) = 1#1) : 0 ≤ w.toInt ∧ w.toInt < 50000 := by
  obtain ⟨hge, hlt⟩ := IntOp.andi_eq_one.1 h
  rw [IntOp.cmpi_sge] at hge
  rw [IntOp.cmpi_slt] at hlt
  have e0 : (0#32 : BitVec 32).toInt = 0 := by decide
  have e1 : (50000#32 : BitVec 32).toInt = 50000 := by decide
  rw [e0] at hge
  rw [e1] at hlt
  exact ⟨hge, hlt⟩

variable [Cert.Pre_finite_inputs.Facts] [Cert.KernelIdeal.Facts]

/-- The precondition at the all-ones scalar: the node features, the first weight matrix and the first bias are real at
    every element, and every edge's source word is a row number of the node features, read signed. -/
theorem of_pre (a0 : FVec Ideal Cert.Pre_finite_inputs.S50000x128 .f32) (a1 : IVec Cert.Pre_finite_inputs.S2x600000 32)
    (a2 : FVec Ideal Cert.Pre_finite_inputs.S128x256 .f32) (a3 a4 a5 : FVec Ideal Cert.Pre_finite_inputs.S256 .f32)
    (a6 : FVec Ideal Cert.Pre_finite_inputs.S128x256 .f32) (a7 : FVec Ideal Cert.Pre_finite_inputs.S256 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
    ∧ (∀ k, 0 ≤ (Cert.KernelIdeal.Agg.src a1 k).toInt ∧ (Cert.KernelIdeal.Agg.src a1 k).toInt < 50000) := by
  have h1 := congrFun h j0
  dsimp only [Cert.Pre_finite_inputs.fn, Cert.Pre_finite_inputs.fn_part1, Cert.Pre_finite_inputs.fn_part2, andi] at h1
  simp only [IntOp.andi_eq_one] at h1
  obtain ⟨⟨⟨⟨⟨⟨⟨h0, h2⟩, h3⟩, -⟩, -⟩, -⟩, -⟩, he⟩ := h1
  refine ⟨real_of_all a0 _ _ _ h0, real_of_all a2 _ _ _ h2, real_of_all a3 _ _ _ h3, fun k => ?_⟩
  have hk := Host.reduce_andi_all _ _ _ _ j0 he k
  exact range_of_cmp _ hk

end Cert.PreFacts
-- ==== Proof.lean ====
/-
  A graph-convolution block — gather neighbour features along 600000 edges, add them into their destination nodes,
  a linear map to 256 features, batch normalisation over the 50000 nodes, ELU, plus a linear shortcut of the node
  features — computed two ways, and the certificate that the two agree over the extended reals.

  The first program takes the batch statistics in two passes over 25 blocks of 2000 rows: a pass that writes per-block
  column sums of out_lin and of its square, host arithmetic mean = Σ/N, var = max(E[o²] − mean², 0), then a pass that
  recomputes out_lin per block and applies (o − mean)·rsqrt(var + ε)·γ + β, ELU and the shortcut. The second program is
  the textbook one: mean = Σ o/N, var = Σ (o − mean)²/N. The two variances are equal by König–Huygens when every
  out_lin entry is finite, which the precondition gives (finite features, weights and bias; aggregation is a finite sum).
  The first program's gather masks out-of-range sources with the NaN word where the second clamps them; under the
  precondition's range 0 ≤ src < 50000 the mask is all ones and the two aggregations are one function.

  Frames: the two kernel programs' are the generated frame certificates; the reference's is its run with the result
  dropped. The idealization rewrote nothing, so `preserves` is trivial. `algebraic`: the kernel program's run with its
  result buffer named, read index by index as the blockwise specification; the reference's run read as the
  whole-column specification; the law joining the two.
-/
import proofs.«418842_j13795434955523_2_alg».proof.Defs
import proofs.«418842_j13795434955523_2_alg».proof.Proof.Gen.Kernel
import proofs.«418842_j13795434955523_2_alg».proof.Proof.Gen.Kernel.Skeleton
import proofs.«418842_j13795434955523_2_alg».proof.Proof.Gen.Kernel.Launch
import proofs.«418842_j13795434955523_2_alg».proof.Proof.Gen.Kernel.Points
import proofs.«418842_j13795434955523_2_alg».proof.Proof.Gen.Kernel.Frame
import proofs.«418842_j13795434955523_2_alg».proof.Proof.Gen.KernelIdeal
import proofs.«418842_j13795434955523_2_alg».proof.Proof.Gen.KernelIdeal.Skeleton
import proofs.«418842_j13795434955523_2_alg».proof.Proof.Gen.KernelIdeal.Launch
import proofs.«418842_j13795434955523_2_alg».proof.Proof.Gen.KernelIdeal.Points
import proofs.«418842_j13795434955523_2_alg».proof.Proof.Gen.KernelIdeal.Frame
import proofs.«418842_j13795434955523_2_alg».proof.Proof.Gen.ReferenceIdeal
import proofs.«418842_j13795434955523_2_alg».proof.Proof.Gen.Pre_finite_inputs
import proofs.«418842_j13795434955523_2_alg».proof.Proof.KRun
import proofs.«418842_j13795434955523_2_alg».proof.Proof.KValue
import proofs.«418842_j13795434955523_2_alg».proof.Proof.RRun
import proofs.«418842_j13795434955523_2_alg».proof.Proof.RValue
import proofs.«418842_j13795434955523_2_alg».proof.Proof.SpecLaw
import proofs.«418842_j13795434955523_2_alg».proof.Proof.AggLaw
import proofs.«418842_j13795434955523_2_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.HandRun.run m ρ)

/-- The idealization rewrote no operation. -/
theorem preserves : Cert.preserves_Kernel_KernelIdeal := trivial

/-- Both programs end, from memories agreeing on the arguments, with the same result array: at (i, j) the first is
    the blockwise specification, the second the whole-column one, of the same aggregated features (the source range
    makes the first program's gather mask all ones), and the two specifications agree where out_lin is finite. -/
theorem algebraic : Cert.algebraic_KernelIdeal_ReferenceIdeal := by
  intro m ρ m' ρ' hpre hagree
  refine ⟨fun c => Cert.KernelIdeal.Gen.W6 m ρ c (Proc.devRef .tc Cert.KernelIdeal.main_v29), Cert.KernelIdeal.Named.run m ρ, ?_⟩
  refine (θ_run Cert.ReferenceIdeal.defs _ _).mono (fun _ h c => ⟨(h c).1.trans ?_, (h c).2⟩) (Cert.ReferenceIdeal.HandRun.run m' ρ')
  obtain ⟨h0, h1, h2, h3, h4, h5, h6, h7⟩ := hagree c
  rw [h0, h1, h2, h3, h4, h5, h6, h7]
  obtain ⟨f0, f2, f3, fsrc⟩ := Cert.PreFacts.of_pre _ _ _ _ _ _ _ _ (hpre c)
  funext idx
  rw [ValueIdx.eq_ix2 idx]
  refine (Cert.ReferenceIdeal.RValue.result_at _ _ _ _ _ _ _ _ (idx 0) (idx 1)).trans ?_
  refine Eq.trans ?_ (Cert.KernelIdeal.Whole.result_at m ρ c (idx 0) (idx 1)).symm
  rw [← Cert.AggLaw.ker_eq_ref _ _ fsrc]
  refine (congrFun (congrFun (Cert.Spec.Kout_eq_Rout _ _ _ _ _ _ _ _ ?_ ?_ ?_) (idx 0)) (idx 1)).symm
  · intro i k
    have := Cert.AggLaw.ref_real _ (m ((c.tc : Thread Cert.KernelIdeal.nD Cert.KernelIdeal.τ).loc Cert.KernelIdeal.main_arg1)) f0 (ix2 i k)
    rw [Cert.AggLaw.ker_eq_ref _ _ fsrc]
    exact this
  · intro k j; exact f2 (ix2 k j)
  · intro j; exact f3 (ix1 j)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
